-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x3 : Shape := ⟨2, ![40000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg2 : IVec S2x640000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x640000 32 := broadcastInDim S2x640000 ![] bcast_S_S2x640000 main_c_22
  let main_v60 : IVec S2x640000 1 := cmpi .sge main_arg2 main_v59
  let main_c_23 : IVec S_ 1 := constantI S_ 1 1#1
  let main_v61 : IVec S_ 1 := (fun x v => Host.reduce IntOp.andi x v reducesTo_S2x640000_S_d0_1 h_S_) main_v60 main_c_23
  let main_v62 : IVec S_ 1 := andi main_v58 main_v61
  let main_c_24 : IVec S_ 32 := constantI S_ 32 40000#32
  let main_v63 : IVec S2x640000 32 := broadcastInDim S2x640000 ![] bcast_S_S2x640000 main_c_24
  let main_v64 : IVec S2x640000 1 := cmpi .slt main_arg2 main_v63
  let main_c_25 : IVec S_ 1 := constantI S_ 1 1#1
  let main_v65 : IVec S_ 1 := (fun x v => Host.reduce IntOp.andi x v reducesTo_S2x640000_S_d0_1 h_S_) main_v64 main_c_25
  let main_v66 : IVec S_ 1 := andi main_v62 main_v65
  main_v66

def fn_part2 {F : FTy → Type} [FloatOps F] (main_arg2 : IVec S2x640000 32) (main_arg8 : FVec F S1 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_v48 main_v49 main_v50

def fn_part1 {F : FTy → Type} [FloatOps F] (main_arg2 : IVec S2x640000 32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S40000x128 .f32) (main_arg1 : FVec F S40000x3 .f32) (main_arg2 : IVec S2x640000 32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_v13 main_v16
-- ==== Kernel.lean ====
abbrev S40000x128 : Shape := ⟨2, ![40000, 128]⟩
abbrev S40000x3 : Shape := ⟨2, ![40000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S640000x3 : Shape := ⟨2, ![640000, 3]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S5000x128 : Shape := ⟨2, ![5000, 128]⟩

abbrev nBuf : Space → Nat
  | .hbm => 131
  | .vmem => 27
  | .smem => 0
  | _ => 0

abbrev hbmTy0_0 (i : Nat) : BufTy := match i % 128 with
  | 0 => ⟨S40000x128, .f32⟩
  | 1 => ⟨S40000x3, .f32⟩
  | 2 => ⟨S2x640000, .i32⟩
  | 3 => ⟨S257x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S256x128, .f32⟩
  | 10 => ⟨S128, .f32⟩
  | 11 => ⟨S128x128, .f32⟩
  | 12 => ⟨S128, .f32⟩
  | 13 => ⟨S1x640000, .i32⟩
  | 14 => ⟨S640000, .i32⟩
  | 15 => ⟨S1x640000, .i32⟩
  | 16 => ⟨S640000, .i32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S1, .i32⟩
  | 26 => ⟨S_, .i32⟩
  | 27 => ⟨S640000x1, .i32⟩
  | 28 => ⟨S640000x1, .i1⟩
  | 29 => ⟨S1x1, .i32⟩
  | 30 => ⟨S640000x1, .i32⟩
  | 31 => ⟨S640000x1, .i1⟩
  | 32 => ⟨S640000x1, .i1⟩
  | 33 => ⟨S_, .i1⟩
  | 34 => ⟨S640000, .i1⟩
  | 35 => ⟨S640000x128, .f32⟩
  | 36 => ⟨S640000x128, .i1⟩
  | 37 => ⟨S_, .f32⟩
  | 38 => ⟨S640000x128, .f32⟩
  | 39 => ⟨S640000x128, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S1, .i32⟩
  | 49 => ⟨S_, .i32⟩
  | 50 => ⟨S640000x1, .i32⟩
  | 51 => ⟨S640000x1, .i1⟩
  | 52 => ⟨S1x1, .i32⟩
  | 53 => ⟨S640000x1, .i32⟩
  | 54 => ⟨S640000x1, .i1⟩
  | 55 => ⟨S640000x1, .i1⟩
  | 56 => ⟨S_, .i1⟩
  | 57 => ⟨S640000, .i1⟩
  | 58 => ⟨S640000x128, .f32⟩
  | 59 => ⟨S640000x128, .i1⟩
  | 60 => ⟨S_, .f32⟩
  | 61 => ⟨S640000x128, .f32⟩
  | 62 => ⟨S640000x128, .f32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S1, .i32⟩
  | 72 => ⟨S_, .i32⟩
  | 73 => ⟨S640000x1, .i32⟩
  | 74 => ⟨S640000x1, .i1⟩
  | 75 => ⟨S1x1, .i32⟩
  | 76 => ⟨S640000x1, .i32⟩
  | 77 => ⟨S640000x1, .i1⟩
  | 78 => ⟨S640000x1, .i1⟩
  | 79 => ⟨S_, .i1⟩
  | 80 => ⟨S640000, .i1⟩
  | 81 => ⟨S640000x3, .f32⟩
  | 82 => ⟨S640000x3, .i1⟩
  | 83 => ⟨S_, .f32⟩
  | 84 => ⟨S640000x3, .f32⟩
  | 85 => ⟨S640000x3, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S1, .i32⟩
  | 95 => ⟨S_, .i32⟩
  | 96 => ⟨S640000x1, .i32⟩
  | 97 => ⟨S640000x1, .i1⟩
  | 98 => ⟨S1x1, .i32⟩
  | 99 => ⟨S640000x1, .i32⟩
  | 100 => ⟨S640000x1, .i1⟩
  | 101 => ⟨S640000x1, .i1⟩
  | 102 => ⟨S_, .i1⟩
  | 103 => ⟨S640000, .i1⟩
  | 104 => ⟨S640000x3, .f32⟩
  | 105 => ⟨S640000x3, .i1⟩
  | 106 => ⟨S_, .f32⟩
  | 107 => ⟨S640000x3, .f32⟩
  | 108 => ⟨S640000x3, .f32⟩
  | 109 => ⟨S640000x3, .f32⟩
  | 110 => ⟨S640000x3, .f32⟩
  | 111 => ⟨S_, .f32⟩
  | 112 => ⟨S640000, .f32⟩
  | 113 => ⟨S640000x1, .f32⟩
  | 114 => ⟨S128x128, .f32⟩
  | 115 => ⟨S128x128, .f32⟩
  | 116 => ⟨S1x128, .f32⟩
  | 117 => ⟨S1x128, .f32⟩
  | 118 => ⟨S1x128, .f32⟩
  | 119 => ⟨S1x128, .f32⟩
  | 120 => ⟨S1x1, .f32⟩
  | 121 => ⟨S640000x128, .f32⟩
  | 122 => ⟨S_, .f32⟩
  | 123 => ⟨S40000x128, .f32⟩
  | 124 => ⟨S640000x1, .i32⟩
  | 125 => ⟨S40000x128, .f32⟩
  | 126 => ⟨S128x128, .f32⟩
  | 127 => ⟨S128x128, .f32⟩
  | _ => ⟨S40000x128, .f32⟩

abbrev hbmTy0_1 (i : Nat) : BufTy := match i % 128 with
  | 0 => ⟨S1x128, .f32⟩
  | 1 => ⟨S1x128, .f32⟩
  | 2 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v6 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v7 : Ref sig .tc := ⟨.hbm, 108, rfl⟩
abbrev main_v8 : Ref sig .tc := ⟨.hbm, 109, rfl⟩
abbrev main_v9 : Ref sig .tc := ⟨.hbm, 110, rfl⟩
abbrev main_cst : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_cst_0 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  reducesTo_S640000x3_S640000_d1 : S640000x3.ReducesTo [1] S640000
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  transposes_S128x1_S1x128_1_0 : S128x1.Transposes [1, 0] S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  bcast_S_S40000x128 : S_.BroadcastsInDim S40000x128 (![] : Fin 0 → Fin S40000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  gather_S40000x3_S640000x1_S640000x3_1_0_n_n_0_1_13_wf : GatherDims.WF S40000x3 S640000x1 S640000x3 [1] [0] [] [0] [] 1 ![1, 3]
  dot_S4000x128_S128x128_S4000x128_1_0_0_1_n_n_wf : DotDims.WF S4000x128 S128x128 S4000x128 [1] [0] [0] [1] [] []
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S640000x128.size a
  hwx0_11 : ∀ i : grid0.Coords, EltTy.bits .f32 = 32 ∨ (Rect.block (s := S640000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S40000x128.size a
  hwx1_7 : ∀ i : grid1.Coords, EltTy.bits .f32 = 32 ∨ (Rect.block (s := S40000x128) S5000x128.size (cc1_transform_7 i) (hinb1_7 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x3 : Shape := ⟨2, ![40000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S1x1 : Shape := ⟨2, ![1, 1]⟩
abbrev S40000x256 : Shape := ⟨2, ![40000, 256]⟩

abbrev nBuf : Space → Nat
  | .hbm => 122
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x3, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x3, .f32⟩
  | .hbm, ⟨35, _⟩ => ⟨S640000x3, .f32⟩
  | .hbm, ⟨36, _⟩ => ⟨S640000x3, .f32⟩
  | .hbm, ⟨37, _⟩ => ⟨S_, .f32⟩
  | .hbm, ⟨38, _⟩ => ⟨S640000, .f32⟩
  | .hbm, ⟨39, _⟩ => ⟨S640000x1, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x257, .f32⟩
  | .hbm, ⟨59, _⟩ => ⟨S640000x128, .f32⟩
  | .hbm, ⟨60, _⟩ => ⟨S1x128, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S640000x128, .f32⟩
  | .hbm, ⟨67, _⟩ => ⟨S640000x128, .f32⟩
  | .hbm, ⟨68, _⟩ => ⟨S_, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S640000x128, .f32⟩
  | .hbm, ⟨73, _⟩ => ⟨S1x128, .f32⟩
  | .hbm, ⟨74, _⟩ => ⟨S640000x128, .f32⟩
  | .hbm, ⟨75, _⟩ => ⟨S640000x128, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S640000x128, .f32⟩
  | .hbm, ⟨83, _⟩ => ⟨S640000x128, .f32⟩
  | .hbm, ⟨84, _⟩ => ⟨S640000x128, .f32⟩
  | .hbm, ⟨85, _⟩ => ⟨S640000x1, .f32⟩
  | .hbm, ⟨86, _⟩ => ⟨S1x1, .f32⟩
  | .hbm, ⟨87, _⟩ => ⟨S640000x1, .f32⟩
  | .hbm, ⟨88, _⟩ => ⟨S640000x1, .f32⟩
  | .hbm, ⟨89, _⟩ => ⟨S640000x1, .f32⟩
  | .hbm, ⟨90, _⟩ => ⟨S640000x1, .f32⟩
  | .hbm, ⟨91, _⟩ => ⟨S_, .f32⟩
  | .hbm, ⟨92, _⟩ => ⟨S640000x1, .f32⟩
  | .hbm, ⟨93, _⟩ => ⟨S640000x1, .f32⟩
  | .hbm, ⟨94, _⟩ => ⟨S_, .f32⟩
  | .hbm, ⟨95, _⟩ => ⟨S640000x1, .f32⟩
  | .hbm, ⟨96, _⟩ => ⟨S640000x1, .f32⟩
  | .hbm, ⟨97, _⟩ => ⟨S640000x128, .f32⟩
  | .hbm, ⟨98, _⟩ => ⟨S640000x128, .f32⟩
  | .hbm, ⟨99, _⟩ => ⟨S_, .f32⟩
  | .hbm, ⟨100, _⟩ => ⟨S40000x128, .f32⟩
  | .hbm, ⟨101, _⟩ => ⟨S640000x1, .i32⟩
  | .hbm, ⟨102, _⟩ => ⟨S40000x128, .f32⟩
  | .hbm, ⟨103, _⟩ => ⟨S40000x256, .f32⟩
  | .hbm, ⟨104, _⟩ => ⟨S40000x128, .f32⟩
  | .hbm, ⟨105, _⟩ => ⟨S1x128, .f32⟩
  | .hbm, ⟨106, _⟩ => ⟨S40000x128, .f32⟩
  | .hbm, ⟨107, _⟩ => ⟨S40000x128, .f32⟩
  | .hbm, ⟨108, _⟩ => ⟨S40000x128, .f32⟩
  | .hbm, ⟨109, _⟩ => ⟨S40000x128, .f32⟩
  | .hbm, ⟨110, _⟩ => ⟨S_, .f32⟩
  | .hbm, ⟨111, _⟩ => ⟨S40000x128, .f32⟩
  | .hbm, ⟨112, _⟩ => ⟨S40000x128, .f32⟩
  | .hbm, ⟨113, _⟩ => ⟨S_, .f32⟩
  | .hbm, ⟨114, _⟩ => ⟨S40000x128, .f32⟩
  | .hbm, ⟨115, _⟩ => ⟨S40000x128, .f32⟩
  | .hbm, ⟨116, _⟩ => ⟨S40000x128, .f32⟩
  | .hbm, ⟨117, _⟩ => ⟨S40000x128, .f32⟩
  | .hbm, ⟨118, _⟩ => ⟨S1x128, .f32⟩
  | .hbm, ⟨119, _⟩ => ⟨S40000x128, .f32⟩
  | .hbm, ⟨120, _⟩ => ⟨S40000x128, .f32⟩
  | .hbm, ⟨121, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_7 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_9 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  gather_S40000x3_S640000x1_S640000x3_1_0_n_n_0_1_13_wf : GatherDims.WF S40000x3 S640000x1 S640000x3 [1] [0] [] [0] [] 1 ![1, 3]
  gather_S40000x128_S640000x1_S640000x128_1_0_n_n_0_1_1128_wf : GatherDims.WF S40000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  The mathematics both programs compute, stated once, over the extended reals.

  The message of one edge depends on the two gathered feature rows of its end points and on one scalar (the
  squared distance): two affine layers, each followed by x ↦ x·σ(x), then a scalar gate σ(⟨m, wₐ⟩ + bₐ) that
  scales the whole row. The update of one node depends on its own feature row and on the row of summed
  messages: an affine layer on the pair, x ↦ x·σ(x), a second affine layer, and the residual. Every sum is a
  finite sum in the commutative monoid of the extended reals, so no regrouping of it needs finiteness.
  The first layer is written with its weight matrix already cut into the part that meets the first row, the
  part that meets the second row and the one row that meets the scalar; a product with the uncut matrix over
  the concatenated vector is the same sum, split at 128 and at 256.
-/
import Idealize.ShloMosaic.PureOps.Ideal
import Idealize.ShloMosaic.Lib.ValueIdx

noncomputable section

namespace Cert.Egnn

open Idealize.ShloMosaic Idealize.ShloMosaic.ValueIdx

/-- x · σ(x), with σ x = 1 / (1 + e⁻ˣ) on the extended reals. -/
def silu (x : EReal) : EReal := x * Ideal.logistic x

/-! ## One edge -/

/-- First affine layer of the edge network on the pair of rows and the scalar. -/
def edgeX1 (hr hc : Fin 128 → EReal) (rad : EReal) (w1a w1b : Fin 128 → Fin 128 → EReal) (w1r b1 : Fin 128 → EReal)
    (j : Fin 128) : EReal :=
  (∑ k : Fin 128, hr k * w1a k j) + (∑ k : Fin 128, hc k * w1b k j) + rad * w1r j + b1 j

/-- Second affine layer, on the activated first layer. -/
def edgeX2 (m1 : Fin 128 → EReal) (w2 : Fin 128 → Fin 128 → EReal) (b2 : Fin 128 → EReal) (j : Fin 128) : EReal :=
  (∑ k : Fin 128, m1 k * w2 k j) + b2 j

/-- The scalar gate of a message row. -/
def edgeGate (m2 : Fin 128 → EReal) (wa : Fin 128 → EReal) (ba : EReal) : EReal :=
  Ideal.logistic ((∑ k : Fin 128, m2 k * wa k) + ba)

/-- The gated message of one edge. -/
def edgeRow (hr hc : Fin 128 → EReal) (rad : EReal) (w1a w1b : Fin 128 → Fin 128 → EReal) (w1r b1 : Fin 128 → EReal)
    (w2 : Fin 128 → Fin 128 → EReal) (b2 wa : Fin 128 → EReal) (ba : EReal) : Fin 128 → EReal :=
  fun j =>
    silu (edgeX2 (fun k => silu (edgeX1 hr hc rad w1a w1b w1r b1 k)) w2 b2 j)
      * edgeGate (fun k => silu (edgeX2 (fun k' => silu (edgeX1 hr hc rad w1a w1b w1r b1 k')) w2 b2 k)) wa ba

/-! ## One node -/

/-- First affine layer of the node network on the node's row and its summed messages. -/
def nodeX (hn ag : Fin 128 → EReal) (w3a w3b : Fin 128 → Fin 128 → EReal) (b3 : Fin 128 → EReal) (j : Fin 128) : EReal :=
  (∑ k : Fin 128, hn k * w3a k j) + (∑ k : Fin 128, ag k * w3b k j) + b3 j

/-- The updated row of one node: the residual plus the second affine layer of the activated first. -/
def nodeRow (hn ag : Fin 128 → EReal) (w3a w3b : Fin 128 → Fin 128 → EReal) (b3 : Fin 128 → EReal)
    (w4 : Fin 128 → Fin 128 → EReal) (b4 : Fin 128 → EReal) : Fin 128 → EReal :=
  fun j => hn j + ((∑ k : Fin 128, silu (nodeX hn ag w3a w3b b3 k) * w4 k j) + b4 j)

/-! ## Whole arrays: the same function on every row, for any number of rows -/

/-- The messages of `n` edges, row by row (parameters as 128×128 matrices and 1×128 rows, the gate's offset 1×1). -/
def edgeArr {n : Nat} (hrow hcol : (⟨2, ![n, 128]⟩ : Shape).Idx → EReal) (rad : (⟨2, ![n, 1]⟩ : Shape).Idx → EReal)
    (w1a w1b : (⟨2, ![128, 128]⟩ : Shape).Idx → EReal) (w1r b1 : (⟨2, ![1, 128]⟩ : Shape).Idx → EReal)
    (w2 : (⟨2, ![128, 128]⟩ : Shape).Idx → EReal) (b2 war : (⟨2, ![1, 128]⟩ : Shape).Idx → EReal)
    (ba : (⟨2, ![1, 1]⟩ : Shape).Idx → EReal) : (⟨2, ![n, 128]⟩ : Shape).Idx → EReal :=
  fun i =>
    edgeRow (fun k => hrow (ix2 (i 0 : Fin n) k)) (fun k => hcol (ix2 (i 0 : Fin n) k)) (rad (ix2 (i 0 : Fin n) (0 : Fin 1)))
      (fun k j => w1a (ix2 k j)) (fun k j => w1b (ix2 k j)) (fun j => w1r (ix2 (0 : Fin 1) j)) (fun j => b1 (ix2 (0 : Fin 1) j))
      (fun k j => w2 (ix2 k j)) (fun j => b2 (ix2 (0 : Fin 1) j)) (fun j => war (ix2 (0 : Fin 1) j)) (ba (ix2 (0 : Fin 1) (0 : Fin 1)))
      (i 1 : Fin 128)

/-- The updated rows of `n` nodes, row by row. -/
def nodeArr {n : Nat} (h agg : (⟨2, ![n, 128]⟩ : Shape).Idx → EReal)
    (w3a w3b : (⟨2, ![128, 128]⟩ : Shape).Idx → EReal) (b3 : (⟨2, ![1, 128]⟩ : Shape).Idx → EReal)
    (w4 : (⟨2, ![128, 128]⟩ : Shape).Idx → EReal) (b4 : (⟨2, ![1, 128]⟩ : Shape).Idx → EReal) :
    (⟨2, ![n, 128]⟩ : Shape).Idx → EReal :=
  fun i =>
    nodeRow (fun k => h (ix2 (i 0 : Fin n) k)) (fun k => agg (ix2 (i 0 : Fin n) k))
      (fun k j => w3a (ix2 k j)) (fun k j => w3b (ix2 k j)) (fun j => b3 (ix2 (0 : Fin 1) j))
      (fun k j => w4 (ix2 k j)) (fun j => b4 (ix2 (0 : Fin 1) j)) (i 1 : Fin 128)

end Cert.Egnn

end
-- ==== Proof.Params.lean ====
/-
  How the networks' parameters are read off the arrays the programs are given: the first layer's 257×128
  matrix is cut at rows 128 and 256, the node network's 256×128 matrix at row 128; a bias vector of length 128
  is a 1×128 row; the gate's 128×1 weight column is the 1×128 row of its entries; the gate's offset is a 1×1
  cell. With these the two networks are functions of the programs' own argument arrays.
-/
import proofs.«428158_j1829656068677_1_alg».proof.Proof.Spec

noncomputable section

namespace Cert.Egnn

open Idealize.ShloMosaic Idealize.ShloMosaic.ValueIdx

/-- The 128 consecutive rows of a taller 128-column matrix that start at row `o`. -/
def rowsFrom {N : Nat} (o : Nat) (h : o + 128 ≤ N) (x : (⟨2, ![N, 128]⟩ : Shape).Idx → EReal) :
    (⟨2, ![128, 128]⟩ : Shape).Idx → EReal :=
  fun i => x (ix2 (⟨o + (i 0 : Fin 128).val, by have h0 : (i 0 : Fin 128).val < 128 := (i 0 : Fin 128).isLt; omega⟩ : Fin N) (i 1 : Fin 128))

/-- Row `o` of a 128-column matrix, as a 1×128 row. -/
def rowAt {N : Nat} (o : Nat) (h : o < N) (x : (⟨2, ![N, 128]⟩ : Shape).Idx → EReal) :
    (⟨2, ![1, 128]⟩ : Shape).Idx → EReal :=
  fun i => x (ix2 (⟨o, h⟩ : Fin N) (i 1 : Fin 128))

/-- A vector of length 128 as a 1×128 row. -/
def vecAsRow (b : (⟨1, ![128]⟩ : Shape).Idx → EReal) : (⟨2, ![1, 128]⟩ : Shape).Idx → EReal :=
  fun i => b (ix1 (i 1 : Fin 128))

/-- A 128×1 column as the 1×128 row of its entries. -/
def colAsRow (w : (⟨2, ![128, 1]⟩ : Shape).Idx → EReal) : (⟨2, ![1, 128]⟩ : Shape).Idx → EReal :=
  fun i => w (ix2 (i 1 : Fin 128) (0 : Fin 1))

/-- A vector of length one as a 1×1 cell. -/
def cellOf (b : (⟨1, ![1]⟩ : Shape).Idx → EReal) : (⟨2, ![1, 1]⟩ : Shape).Idx → EReal :=
  fun _ => b (ix1 (0 : Fin 1))

/-- The messages of `n` edges from their gathered rows, their squared distances and the edge network's parameters
    as the programs receive them (the 257×128 first-layer matrix, biases as vectors, the gate's column and offset). -/
def messages {n : Nat} (hrow hcol : (⟨2, ![n, 128]⟩ : Shape).Idx → EReal) (rad : (⟨2, ![n, 1]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wa : (⟨2, ![128, 1]⟩ : Shape).Idx → EReal) (ba : (⟨1, ![1]⟩ : Shape).Idx → EReal) :
    (⟨2, ![n, 128]⟩ : Shape).Idx → EReal :=
  edgeArr hrow hcol rad (rowsFrom 0 (by decide) W1) (rowsFrom 128 (by decide) W1) (rowAt 256 (by decide) W1) (vecAsRow b1) W2
    (vecAsRow b2) (colAsRow Wa) (cellOf ba)

/-- The updated rows of `n` nodes from their rows, their summed messages and the node network's parameters as
    the programs receive them (the 256×128 first-layer matrix, biases as vectors). -/
def update {n : Nat} (h agg : (⟨2, ![n, 128]⟩ : Shape).Idx → EReal)
    (W3 : (⟨2, ![256, 128]⟩ : Shape).Idx → EReal) (b3 : (⟨1, ![128]⟩ : Shape).Idx → EReal)
    (W4 : (⟨2, ![128, 128]⟩ : Shape).Idx → EReal) (b4 : (⟨1, ![128]⟩ : Shape).Idx → EReal) :
    (⟨2, ![n, 128]⟩ : Shape).Idx → EReal :=
  nodeArr h agg (rowsFrom 0 (by decide) W3) (rowsFrom 128 (by decide) W3) (vecAsRow b3) W4 (vecAsRow b4)

end Cert.Egnn

end
-- ==== Proof.HostDefs.lean ====
/-
  The host operations of the kernel program, as functions of its argument arrays. Each edge's two end points are
  the two rows of the 2×E index array. A row of node features (or of coordinates) is fetched for every edge by
  the wrapped index: a negative index is shifted by the number of nodes, the fetch itself clamps to the array,
  and the result is kept where the wrapped index lies inside the array and replaced by a not-a-number pattern
  where it does not. The squared distance of an edge is the sum over the three coordinates of the squared
  difference of its end points' coordinates. The messages are summed per source node into a zero array.
-/
import proofs.«428158_j1829656068677_1_alg».proof.Proof.Gen.KernelIdeal
import proofs.«428158_j1829656068677_1_alg».proof.Proof.Params

noncomputable section

namespace Cert.KernelIdeal.HostValue

open Cert.KernelIdeal Cert.KernelIdeal.Facts₀ Cert.KernelIdeal.Facts Idealize.ShloMosaic

variable {F : FTy → Type} [FloatOps F]

/-- The source node of every edge: row 0 of the index array. -/
def srcIdx (x2 : IVec S2x640000 32) : IVec S640000 32 :=
  shapeCast S640000 (extractStridedSlice S1x640000 ![0, 0] x2 slices_S2x640000_S1x640000_0_0) shapeCasts_S1x640000_S640000

/-- The target node of every edge: row 1 of the index array. -/
def dstIdx (x2 : IVec S2x640000 32) : IVec S640000 32 :=
  shapeCast S640000 (extractStridedSlice S1x640000 ![1, 0] x2 slices_S2x640000_S1x640000_1_0) shapeCasts_S1x640000_S640000

/-- An index vector with its negative entries shifted by the number of nodes, as a column of start indices. -/
def wrapIdx (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 40000#32))) v)

/-- Per edge: does the wrapped index lie in [0, 39999]? -/
def inRange (s : IVec S640000x1 32) : IVec S640000 1 :=
  Host.reduce IntOp.andi
    (andi (cmpi .sge s (broadcastInDim S640000x1 ![] bcast_S_S640000x1 (constantI S_ 32 0#32)))
      (cmpi .sle s (broadcastInDim S640000x1 ![0, 1] bcast_S1x1_S640000x1_0_1 (broadcastInDim S1x1 ![1] bcast_S1_S1x1_1 (constantI S1 32 39999#32)))))
    (constantI S_ 1 1#1) reducesTo_S640000x1_S640000_d1 h_S_

/-- The feature rows fetched for an index vector, with the not-a-number fill outside the array. -/
def takeRows (x0 : FVec F S40000x128 .f32) (v : IVec S640000 32) : FVec F S640000x128 .f32 :=
  select (broadcastInDim S640000x128 ![0] bcast_S640000_S640000x128_0 (inRange (wrapIdx v)))
    (Host.gather gather_S40000x128_S640000x1_S640000x128_1_0_n_n_0_1_1128 x0 (wrapIdx v))
    (broadcastInDim S640000x128 ![] bcast_S_S640000x128 (constant S_ .f32 0x7FC00000#32))

/-- The coordinate rows fetched for an index vector, with the not-a-number fill outside the array. -/
def takeCoords (x1 : FVec F S40000x3 .f32) (v : IVec S640000 32) : FVec F S640000x3 .f32 :=
  select (broadcastInDim S640000x3 ![0] bcast_S640000_S640000x3_0 (inRange (wrapIdx v)))
    (Host.gather gather_S40000x3_S640000x1_S640000x3_1_0_n_n_0_1_13 x1 (wrapIdx v))
    (broadcastInDim S640000x3 ![] bcast_S_S640000x3 (constant S_ .f32 0x7FC00000#32))

/-- The squared distance of every edge from two arrays of end-point coordinates, as an E×1 column. -/
def sqDist (a b : FVec F S640000x3 .f32) : FVec F S640000x1 .f32 :=
  broadcastInDim S640000x1 ![0] bcast_S640000_S640000x1_0
    (Host.reduceAdd (mulf (subf a b) (subf a b)) (constant S_ .f32 0x00000000#32) reducesTo_S640000x3_S640000_d1 h_S_)

/-- The messages summed per source node, into a zero array. -/
def summed (x2 : IVec S2x640000 32) (msgs : FVec F S640000x128 .f32) : FVec F S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 (srcIdx x2)) msgs

/-- Rows 0–127 of the edge network's first-layer matrix: the part that meets the source node's features. -/
def w1aOf (x3 : FVec F S257x128 .f32) : FVec F S128x128 .f32 := extractStridedSlice S128x128 ![0, 0] x3 slices_S257x128_S128x128_0_0
/-- Rows 128–255 of that matrix: the part that meets the target node's features. -/
def w1bOf (x3 : FVec F S257x128 .f32) : FVec F S128x128 .f32 := extractStridedSlice S128x128 ![128, 0] x3 slices_S257x128_S128x128_128_0
/-- Row 256 of that matrix: the part that meets the squared distance. -/
def w1rOf (x3 : FVec F S257x128 .f32) : FVec F S1x128 .f32 := extractStridedSlice S1x128 ![256, 0] x3 slices_S257x128_S1x128_256_0
/-- A bias vector as a 1×128 row. -/
def biasRow (b : FVec F S128 .f32) : FVec F S1x128 .f32 := shapeCast S1x128 b shapeCasts_S128_S1x128
/-- The gate's weight column transposed to a 1×128 row. -/
def gateRow (x7 : FVec F S128x1 .f32) : FVec F S1x128 .f32 := transpose S1x128 [1, 0] x7 transposes_S128x1_S1x128_1_0
/-- The gate's offset as a 1×1 cell. -/
def gateCell (x8 : FVec F S1 .f32) : FVec F S1x1 .f32 := shapeCast S1x1 x8 shapeCasts_S1_S1x1
/-- Rows 0–127 of the node network's first-layer matrix: the part that meets the node's own features. -/
def w3aOf (x9 : FVec F S256x128 .f32) : FVec F S128x128 .f32 := extractStridedSlice S128x128 ![0, 0] x9 slices_S256x128_S128x128_0_0
/-- Rows 128–255 of that matrix: the part that meets the summed messages. -/
def w3bOf (x9 : FVec F S256x128 .f32) : FVec F S128x128 .f32 := extractStridedSlice S128x128 ![128, 0] x9 slices_S256x128_S128x128_128_0

/-- The kernel program's result as one function of its thirteen argument arrays, at the ideal instance: the node
    network on the features and the summed messages, the messages the edge network's on the fetched rows and the
    squared distances, every parameter array cut, re-laid or transposed as the program's host operations do it. -/
def kernelValue (x0 : FVec Ideal S40000x128 .f32) (x1 : FVec Ideal S40000x3 .f32) (x2 : IVec S2x640000 32)
    (x3 : FVec Ideal S257x128 .f32) (x4 : FVec Ideal S128 .f32) (x5 : FVec Ideal S128x128 .f32) (x6 : FVec Ideal S128 .f32)
    (x7 : FVec Ideal S128x1 .f32) (x8 : FVec Ideal S1 .f32) (x9 : FVec Ideal S256x128 .f32) (x10 : FVec Ideal S128 .f32)
    (x11 : FVec Ideal S128x128 .f32) (x12 : FVec Ideal S128 .f32) : FVec Ideal S40000x128 .f32 :=
  Cert.Egnn.nodeArr x0
    (summed (F := Ideal) x2
      (Cert.Egnn.edgeArr (takeRows (F := Ideal) x0 (srcIdx x2)) (takeRows (F := Ideal) x0 (dstIdx x2))
        (sqDist (F := Ideal) (takeCoords x1 (srcIdx x2)) (takeCoords x1 (dstIdx x2)))
        (w1aOf (F := Ideal) x3) (w1bOf (F := Ideal) x3) (w1rOf (F := Ideal) x3) (biasRow (F := Ideal) x4) x5 (biasRow (F := Ideal) x6)
        (gateRow (F := Ideal) x7) (gateCell (F := Ideal) x8)))
    (w3aOf (F := Ideal) x9) (w3bOf (F := Ideal) x9) (biasRow (F := Ideal) x10) x11 (biasRow (F := Ideal) x12)

end Cert.KernelIdeal.HostValue

end
-- ==== Proof.HostK.lean ====
/-
  The arrays the two regions are entered with, read back through the program's host operations to the launch
  memory: the first region finds the fetched feature rows of both end points, the squared distances and the edge
  network's parameters cut and re-laid; the second finds the features, the per-node sums of what the first region
  left in its output array, and the node network's parameters.
-/
import proofs.«428158_j1829656068677_1_alg».proof.Proof.Gen.KernelIdeal.Frame
import proofs.«428158_j1829656068677_1_alg».proof.Proof.HostDefs
import Idealize.ShloMosaic.Lib.StableHlo.Run

noncomputable section

namespace Cert.KernelIdeal.HostValue

open Cert.KernelIdeal Cert.KernelIdeal.Gen Cert.KernelIdeal.Facts₀ Cert.KernelIdeal.Facts
open Idealize.ShloMosaic Idealize.ShloMosaic.TcCoe Idealize.SL.Sem

variable {F : FTy → Type} [FloatOps F]

/-! ## One stretch of host operations, from any contents

Each stretch is a straight line of array operations; what it leaves in its last result is one of the host
functions applied to what the stretch found in the buffers it reads. -/

section Stretch

variable (V : Valuation τ sig (Elt F))

/-- The first stretch cuts row 0 of the index array and flattens it: the source node of every edge. -/
theorem ends_src : StableHlo.after hostOps0 V (Proc.devRef .tc main_v1) = srcIdx (V (Proc.devRef .tc main_arg2)) := by
  after_results; rfl

/-- It cuts row 1 likewise: the target node of every edge. -/
theorem ends_dst : StableHlo.after hostOps0 V (Proc.devRef .tc main_v3) = dstIdx (V (Proc.devRef .tc main_arg2)) := by
  after_results; rfl

/-- The first fetch: the feature rows at the source nodes (wrap the index, fetch, keep where in range). -/
theorem fetch_hrow : StableHlo.after hostOps0_1 V (Proc.devRef .tc main_v4)
    = takeRows (V (Proc.devRef .tc main_arg0)) (V (Proc.devRef .tc main_v1)) := by
  simp only [hostOps0_1, StableHlo.TRef.nullary, StableHlo.TRef.unary, StableHlo.TRef.binary, StableHlo.TRef.ternary,
    StableHlo.TRef.toBuf, StableHlo.TRef.ofBuf, cast_eq]
  after_results_simp
  rfl

/-- The second fetch: the feature rows at the target nodes. -/
theorem fetch_hcol : StableHlo.after hostOps0_2 V (Proc.devRef .tc main_v5)
    = takeRows (V (Proc.devRef .tc main_arg0)) (V (Proc.devRef .tc main_v3)) := by
  simp only [hostOps0_2, StableHlo.TRef.nullary, StableHlo.TRef.unary, StableHlo.TRef.binary, StableHlo.TRef.ternary,
    StableHlo.TRef.toBuf, StableHlo.TRef.ofBuf, cast_eq]
  after_results_simp
  rfl

/-- The third fetch: the coordinates at the source nodes. -/
theorem fetch_xrow : StableHlo.after hostOps0_3 V (Proc.devRef .tc main_v6)
    = takeCoords (V (Proc.devRef .tc main_arg1)) (V (Proc.devRef .tc main_v1)) := by
  simp only [hostOps0_3, StableHlo.TRef.nullary, StableHlo.TRef.unary, StableHlo.TRef.binary, StableHlo.TRef.ternary,
    StableHlo.TRef.toBuf, StableHlo.TRef.ofBuf, cast_eq]
  after_results_simp
  rfl

/-- The fourth fetch: the coordinates at the target nodes. -/
theorem fetch_xcol : StableHlo.after hostOps0_4 V (Proc.devRef .tc main_v7)
    = takeCoords (V (Proc.devRef .tc main_arg1)) (V (Proc.devRef .tc main_v3)) := by
  simp only [hostOps0_4, StableHlo.TRef.nullary, StableHlo.TRef.unary, StableHlo.TRef.binary, StableHlo.TRef.ternary,
    StableHlo.TRef.toBuf, StableHlo.TRef.ofBuf, cast_eq]
  after_results_simp
  rfl

/-- The last stretch before the first region: the squared distance of the two fetched coordinate arrays. -/
theorem dist_sq : StableHlo.after hostOps0_5 V (Proc.devRef .tc main_v11)
    = sqDist (V (Proc.devRef .tc main_v6)) (V (Proc.devRef .tc main_v7)) := by
  after_results; rfl

/-- The stretch between the regions: the first region's output summed per source node into a zero array. -/
theorem sum_by_src : StableHlo.after hostOps1 V (Proc.devRef .tc main_v22)
    = Host.scatterAdd scatter_S40000x128_S640000x1_S640000x128_1_0_0_1
        (broadcastInDim S40000x128 ![] Gen.bcast_S_S40000x128 (constant (F := F) S_ .f32 0x00000000#32))
        (broadcastInDim S640000x1 ![0] Gen.bcast_S640000_S640000x1_0 (V (Proc.devRef .tc main_v1)))
        (V (Proc.devRef .tc main_v19)) := by
  after_results <;> rfl

end Stretch

variable (m : (ℓ : Loc nD τ sig) → Buf (Elt F) ℓ) (ρ : Dev nD → PrngReg)

/-- A stretch of host operations leaves a buffer none of its operations writes as it found it. -/
local macro "keeps" : tactic => `(tactic| (
  refine StableHlo.after_of_forall_not_mem _ _ (List.forall_iff_forall_mem.mp ?_)
  simp only [hostOps0, hostOps0_1, hostOps0_2, hostOps0_3, hostOps0_4, hostOps0_5, hostOps1, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The index rows, the features and the coordinates at the boundaries where they are read -/

theorem W1_src (c : Dev nD) : W1 m ρ c (Proc.devRef .tc main_v1) = srcIdx (m ((c.tc : Thread nD τ).loc main_arg2)) :=
  (ends_src (W0 m ρ c)).trans rfl
theorem W1_dst (c : Dev nD) : W1 m ρ c (Proc.devRef .tc main_v3) = dstIdx (m ((c.tc : Thread nD τ).loc main_arg2)) :=
  (ends_dst (W0 m ρ c)).trans rfl
theorem W2_dst (c : Dev nD) : W2 m ρ c (Proc.devRef .tc main_v3) = dstIdx (m ((c.tc : Thread nD τ).loc main_arg2)) :=
  (show W2 m ρ c (Proc.devRef .tc main_v3) = W1 m ρ c (Proc.devRef .tc main_v3) by keeps).trans (W1_dst m ρ c)
theorem W3_src (c : Dev nD) : W3 m ρ c (Proc.devRef .tc main_v1) = srcIdx (m ((c.tc : Thread nD τ).loc main_arg2)) :=
  calc W3 m ρ c (Proc.devRef .tc main_v1)
    _ = W2 m ρ c (Proc.devRef .tc main_v1) := by keeps
    _ = W1 m ρ c (Proc.devRef .tc main_v1) := by keeps
    _ = _ := W1_src m ρ c
theorem W4_dst (c : Dev nD) : W4 m ρ c (Proc.devRef .tc main_v3) = dstIdx (m ((c.tc : Thread nD τ).loc main_arg2)) :=
  calc W4 m ρ c (Proc.devRef .tc main_v3)
    _ = W3 m ρ c (Proc.devRef .tc main_v3) := by keeps
    _ = W2 m ρ c (Proc.devRef .tc main_v3) := by keeps
    _ = _ := W2_dst m ρ c
theorem W6_src (c : Dev nD) : W6 m ρ c (Proc.devRef .tc main_v1) = srcIdx (m ((c.tc : Thread nD τ).loc main_arg2)) :=
  calc W6 m ρ c (Proc.devRef .tc main_v1)
    _ = W5 m ρ c (Proc.devRef .tc main_v1) := by keeps
    _ = W4 m ρ c (Proc.devRef .tc main_v1) := by keeps
    _ = W3 m ρ c (Proc.devRef .tc main_v1) := by keeps
    _ = _ := W3_src m ρ c

theorem W1_feat (c : Dev nD) : W1 m ρ c (Proc.devRef .tc main_arg0) = m ((c.tc : Thread nD τ).loc main_arg0) :=
  (show W1 m ρ c (Proc.devRef .tc main_arg0) = W0 m ρ c (Proc.devRef .tc main_arg0) by keeps).trans rfl
theorem W2_feat (c : Dev nD) : W2 m ρ c (Proc.devRef .tc main_arg0) = m ((c.tc : Thread nD τ).loc main_arg0) :=
  (show W2 m ρ c (Proc.devRef .tc main_arg0) = W1 m ρ c (Proc.devRef .tc main_arg0) by keeps).trans (W1_feat m ρ c)
theorem W3_pos (c : Dev nD) : W3 m ρ c (Proc.devRef .tc main_arg1) = m ((c.tc : Thread nD τ).loc main_arg1) :=
  calc W3 m ρ c (Proc.devRef .tc main_arg1)
    _ = W2 m ρ c (Proc.devRef .tc main_arg1) := by keeps
    _ = W1 m ρ c (Proc.devRef .tc main_arg1) := by keeps
    _ = W0 m ρ c (Proc.devRef .tc main_arg1) := by keeps
    _ = _ := rfl
theorem W4_pos (c : Dev nD) : W4 m ρ c (Proc.devRef .tc main_arg1) = m ((c.tc : Thread nD τ).loc main_arg1) :=
  (show W4 m ρ c (Proc.devRef .tc main_arg1) = W3 m ρ c (Proc.devRef .tc main_arg1) by keeps).trans (W3_pos m ρ c)

/-! ## What the first region is entered with -/

theorem entry0_hrow (c : Dev nD) : V6 m ρ c main_v4 = takeRows (m ((c.tc : Thread nD τ).loc main_arg0)) (srcIdx (m ((c.tc : Thread nD τ).loc main_arg2))) :=
  calc W6 m ρ c (Proc.devRef .tc main_v4)
    _ = W5 m ρ c (Proc.devRef .tc main_v4) := by keeps
    _ = W4 m ρ c (Proc.devRef .tc main_v4) := by keeps
    _ = W3 m ρ c (Proc.devRef .tc main_v4) := by keeps
    _ = W2 m ρ c (Proc.devRef .tc main_v4) := by keeps
    _ = takeRows (W1 m ρ c (Proc.devRef .tc main_arg0)) (W1 m ρ c (Proc.devRef .tc main_v1)) := fetch_hrow (W1 m ρ c)
    _ = _ := by rw [W1_feat, W1_src]
theorem entry0_hcol (c : Dev nD) : V6 m ρ c main_v5 = takeRows (m ((c.tc : Thread nD τ).loc main_arg0)) (dstIdx (m ((c.tc : Thread nD τ).loc main_arg2))) :=
  calc W6 m ρ c (Proc.devRef .tc main_v5)
    _ = W5 m ρ c (Proc.devRef .tc main_v5) := by keeps
    _ = W4 m ρ c (Proc.devRef .tc main_v5) := by keeps
    _ = W3 m ρ c (Proc.devRef .tc main_v5) := by keeps
    _ = takeRows (W2 m ρ c (Proc.devRef .tc main_arg0)) (W2 m ρ c (Proc.devRef .tc main_v3)) := fetch_hcol (W2 m ρ c)
    _ = _ := by rw [W2_feat, W2_dst]
theorem entry0_radial (c : Dev nD) :
    V6 m ρ c main_v11 = sqDist (takeCoords (m ((c.tc : Thread nD τ).loc main_arg1)) (srcIdx (m ((c.tc : Thread nD τ).loc main_arg2)))) (takeCoords (m ((c.tc : Thread nD τ).loc main_arg1)) (dstIdx (m ((c.tc : Thread nD τ).loc main_arg2)))) := by
  have hrow : W5 m ρ c (Proc.devRef .tc main_v6)
      = takeCoords (m ((c.tc : Thread nD τ).loc main_arg1)) (srcIdx (m ((c.tc : Thread nD τ).loc main_arg2))) :=
    calc W5 m ρ c (Proc.devRef .tc main_v6)
      _ = W4 m ρ c (Proc.devRef .tc main_v6) := by keeps
      _ = takeCoords (W3 m ρ c (Proc.devRef .tc main_arg1)) (W3 m ρ c (Proc.devRef .tc main_v1)) := fetch_xrow (W3 m ρ c)
      _ = _ := by rw [W3_pos, W3_src]
  have hcol : W5 m ρ c (Proc.devRef .tc main_v7)
      = takeCoords (m ((c.tc : Thread nD τ).loc main_arg1)) (dstIdx (m ((c.tc : Thread nD τ).loc main_arg2))) :=
    calc W5 m ρ c (Proc.devRef .tc main_v7)
      _ = takeCoords (W4 m ρ c (Proc.devRef .tc main_arg1)) (W4 m ρ c (Proc.devRef .tc main_v3)) := fetch_xcol (W4 m ρ c)
      _ = _ := by rw [W4_pos, W4_dst]
  calc W6 m ρ c (Proc.devRef .tc main_v11)
    _ = sqDist (W5 m ρ c (Proc.devRef .tc main_v6)) (W5 m ρ c (Proc.devRef .tc main_v7)) := dist_sq (W5 m ρ c)
    _ = _ := by rw [hrow, hcol]
theorem entry0_w1a (c : Dev nD) : V6 m ρ c main_v12 = w1aOf (m ((c.tc : Thread nD τ).loc main_arg3)) := by
  show StableHlo.after hostOps0_5 (W5 m ρ c) (Proc.devRef .tc main_v12) = _
  after_results <;> rfl
theorem entry0_w1b (c : Dev nD) : V6 m ρ c main_v13 = w1bOf (m ((c.tc : Thread nD τ).loc main_arg3)) := by
  show StableHlo.after hostOps0_5 (W5 m ρ c) (Proc.devRef .tc main_v13) = _
  after_results <;> rfl
theorem entry0_w1r (c : Dev nD) : V6 m ρ c main_v14 = w1rOf (m ((c.tc : Thread nD τ).loc main_arg3)) := by
  show StableHlo.after hostOps0_5 (W5 m ρ c) (Proc.devRef .tc main_v14) = _
  after_results <;> rfl
theorem entry0_b1 (c : Dev nD) : V6 m ρ c main_v15 = biasRow (m ((c.tc : Thread nD τ).loc main_arg4)) := by
  show StableHlo.after hostOps0_5 (W5 m ρ c) (Proc.devRef .tc main_v15) = _
  after_results <;> rfl
theorem entry0_w2 (c : Dev nD) : V6 m ρ c main_arg5 = (m ((c.tc : Thread nD τ).loc main_arg5)) := by
  show StableHlo.after hostOps0_5 (W5 m ρ c) (Proc.devRef .tc main_arg5) = _
  after_results <;> rfl
theorem entry0_b2 (c : Dev nD) : V6 m ρ c main_v16 = biasRow (m ((c.tc : Thread nD τ).loc main_arg6)) := by
  show StableHlo.after hostOps0_5 (W5 m ρ c) (Proc.devRef .tc main_v16) = _
  after_results <;> rfl
theorem entry0_war (c : Dev nD) : V6 m ρ c main_v17 = gateRow (m ((c.tc : Thread nD τ).loc main_arg7)) := by
  show StableHlo.after hostOps0_5 (W5 m ρ c) (Proc.devRef .tc main_v17) = _
  after_results <;> rfl
theorem entry0_ba (c : Dev nD) : V6 m ρ c main_v18 = gateCell (m ((c.tc : Thread nD τ).loc main_arg8)) := by
  show StableHlo.after hostOps0_5 (W5 m ρ c) (Proc.devRef .tc main_v18) = _
  after_results <;> rfl

/-! ## What the second region is entered with

The first region writes only its output array; an argument buffer is at its exit what the launch memory held. -/

/-- An argument buffer that is none of the first region's arrays, at the first region's exit. -/
local macro "arg_at_exit" c:term "," b:term : tactic => `(tactic| (
  rw [W7_of_ne m ρ $c $b (by decide)]
  show StableHlo.after hostOps0_5 (W5 m ρ $c) (Proc.devRef .tc $b) = _
  after_results <;> rfl))

theorem W7_feat (c : Dev nD) : W7 m ρ c (Proc.devRef .tc main_arg0) = m ((c.tc : Thread nD τ).loc main_arg0) := by
  arg_at_exit c, main_arg0
theorem W7_w3 (c : Dev nD) : W7 m ρ c (Proc.devRef .tc main_arg9) = m ((c.tc : Thread nD τ).loc main_arg9) := by
  arg_at_exit c, main_arg9
theorem W7_b3 (c : Dev nD) : W7 m ρ c (Proc.devRef .tc main_arg10) = m ((c.tc : Thread nD τ).loc main_arg10) := by
  arg_at_exit c, main_arg10
theorem W7_w4 (c : Dev nD) : W7 m ρ c (Proc.devRef .tc main_arg11) = m ((c.tc : Thread nD τ).loc main_arg11) := by
  arg_at_exit c, main_arg11
theorem W7_b4 (c : Dev nD) : W7 m ρ c (Proc.devRef .tc main_arg12) = m ((c.tc : Thread nD τ).loc main_arg12) := by
  arg_at_exit c, main_arg12

theorem entry1_h (c : Dev nD) : V8 m ρ c main_arg0 = (m ((c.tc : Thread nD τ).loc main_arg0)) := by
  show StableHlo.after hostOps1 (W7 m ρ c) (Proc.devRef .tc main_arg0) = _
  after_results
  exact W7_feat m ρ c
theorem entry1_agg (c : Dev nD) : V8 m ρ c main_v22 = summed (m ((c.tc : Thread nD τ).loc main_arg2)) ((dat0 (V6 m ρ) c).arrAt 11 cfg0.N) := by
  show StableHlo.after hostOps1 (W7 m ρ c) (Proc.devRef .tc main_v22) = _
  rw [sum_by_src, W7_of_ne m ρ c main_v1 (by decide), W6_src,
    show W7 m ρ c (Proc.devRef .tc main_v19) = (dat0 (V6 m ρ) c).arrAt 11 cfg0.N from W7_arr m ρ c 11]
  rfl
theorem entry1_w3a (c : Dev nD) : V8 m ρ c main_v23 = w3aOf (m ((c.tc : Thread nD τ).loc main_arg9)) := by
  show StableHlo.after hostOps1 (W7 m ρ c) (Proc.devRef .tc main_v23) = _
  after_results
  rw [W7_w3]; rfl
theorem entry1_w3b (c : Dev nD) : V8 m ρ c main_v24 = w3bOf (m ((c.tc : Thread nD τ).loc main_arg9)) := by
  show StableHlo.after hostOps1 (W7 m ρ c) (Proc.devRef .tc main_v24) = _
  after_results
  rw [W7_w3]; rfl
theorem entry1_b3 (c : Dev nD) : V8 m ρ c main_v25 = biasRow (m ((c.tc : Thread nD τ).loc main_arg10)) := by
  show StableHlo.after hostOps1 (W7 m ρ c) (Proc.devRef .tc main_v25) = _
  after_results
  rw [W7_b3]; rfl
theorem entry1_w4 (c : Dev nD) : V8 m ρ c main_arg11 = (m ((c.tc : Thread nD τ).loc main_arg11)) := by
  show StableHlo.after hostOps1 (W7 m ρ c) (Proc.devRef .tc main_arg11) = _
  after_results
  exact W7_w4 m ρ c
theorem entry1_b4 (c : Dev nD) : V8 m ρ c main_v26 = biasRow (m ((c.tc : Thread nD τ).loc main_arg12)) := by
  show StableHlo.after hostOps1 (W7 m ρ c) (Proc.devRef .tc main_v26) = _
  after_results
  rw [W7_b4]; rfl

end Cert.KernelIdeal.HostValue

end
-- ==== Proof.Edge.lean ====
/-
  What the first region leaves in its output array: every row of the message array is the edge network's
  function of the same row of the two gathered feature arrays and of the distance column, with the parameter
  arrays read whole.

  The road: the value the body stores, read at one index, is the specification's per-row function of the rows of
  its loaded blocks (each matrix product a sum over the contracted coordinate, the lane reduction a sum over the
  lanes, each spread of a row, a column or a cell read back at its source entry); so the block a point leaves is the
  edge network applied to that point's input blocks; each input block is the matching rows of its array (the parameter
  blocks the whole arrays); so a point writes back its block of the edge network applied to the arrays; and the 160
  blocks cover the message array.
-/
import proofs.«428158_j1829656068677_1_alg».proof.Proof.Gen.KernelIdeal.Frame
import proofs.«428158_j1829656068677_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product at an index -/

/-! The operand indices of the product at output index i and contraction index q: the left operand is read at
    (row of i, q), the right operand at (q, column of i); one statement per axis. -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product of a 4000×128 block with a 128×128 matrix into the zero block, at row p and column q, is the
    sum over the contracted coordinate. -/
theorem matmul_at {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant S4000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## Layout operations at an index -/

/-- One column spread over the lanes: a [a,1] block read at (p, c) is its entry of row p. -/
theorem broadcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries set as a column [a,1]: entry p sits at (p, 0). -/
theorem shapeCast_col {α : Type} {a : ℕ} (v : (⟨1, ![a]⟩ : Shape).Idx → α)
    (h : (⟨1, ![a]⟩ : Shape).ShapeCasts ⟨2, ![a, 1]⟩) (p : Fin a) (c : Fin 1) :
    shapeCast ⟨2, ![a, 1]⟩ v h (ix2 p c) = v (ix1 p) := by
  refine shapeCast_apply v h (ix2 p c) (ix1 p) ?_
  rw [Shape.rowMajor_val_one, Shape.rowMajor_val_two]
  show p.val = p.val * 1 + c.val
  have := c.isLt; omega

/-- The sum over the lanes of a 4000×128 block, at row p. -/
theorem lane_sum (src : FVec Ideal S4000x128 .f32) (h : S4000x128.Reduces [1] S4000) (hφ : FTy.f32 = FTy.f32 ∨ FTy.f32 = FTy.bf16)
    (hacc : (0x00000000#32 : BitVec 32) = 0x00000000#32) (p : Fin 4000) :
    multiReduction (F := Ideal) .add [1] S4000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src (funext fun a => Fin.ext ?_)
  match a with
  | ⟨0, _⟩ => rfl
  | ⟨1, _⟩ => rfl

/-- The logistic function acts entry by entry. -/
theorem logistic_at {s : Shape} {φ : FTy} (x : FVec Ideal s φ) (i : s.Idx) : logistic x i = Ideal.logistic (x i) := rfl

/-! ## The payload at an index -/

section Payload
variable (v0 v3 : Vec Ideal S4000x128 .f32) (v6 v9 : Vec Ideal S128x128 .f32) (v15 : Vec Ideal S4000x1 .f32)
  (v17 v23 : Vec Ideal S1x128 .f32) (v30 : Vec Ideal S128x128 .f32) (v33 v39 : Vec Ideal S1x128 .f32) (v45 : Vec Ideal S1x1 .f32)

/-- The second affine layer of the block the body computes, at row p and column q: the second layer of the
    specification on the activated first layer of row p. -/
theorem pay2_at (p : Fin 4000) (q : Fin 128) :
    k0_pay2 (F := Ideal) v0 v3 v6 v9 v15 v17 v23 v30 v33 (ix2 p q)
      = Cert.Egnn.edgeX2 (fun k => Cert.Egnn.silu (Cert.Egnn.edgeX1 (fun k' => v0 (ix2 p k')) (fun k' => v3 (ix2 p k')) (v15 (ix2 p (0 : Fin 1)))
          (fun k' j => v6 (ix2 k' j)) (fun k' j => v9 (ix2 k' j)) (fun j => v17 (ix2 (0 : Fin 1) j)) (fun j => v23 (ix2 (0 : Fin 1) j)) k))
          (fun k j => v30 (ix2 k j)) (fun j => v33 (ix2 (0 : Fin 1) j)) q := by
  unfold k0_pay2
  simp only [shapeCast_self, addf_apply, mulf_apply, truncf_apply, logistic_at, matmul_at, broadcastTo_1b_ab_apply, broadcast_col]
  rfl

/-- Its logistic, entry by entry. -/
theorem pay3_at (p : Fin 4000) (q : Fin 128) :
    k0_pay3 (F := Ideal) v0 v3 v6 v9 v15 v17 v23 v30 v33 (ix2 p q)
      = Ideal.logistic (k0_pay2 (F := Ideal) v0 v3 v6 v9 v15 v17 v23 v30 v33 (ix2 p q)) := by
  unfold k0_pay3
  exact logistic_at _ _

/-- The gated row: for ANY block x with its logistic, the stored value at row p and column q is x·σ(x) there times
    the gate of row p. -/
theorem pay1_at (x : FVec Ideal S4000x128 .f32) (p : Fin 4000) (q : Fin 128) :
    k0_pay1 (F := Ideal) x (logistic x) v39 v45 (ix2 p q)
      = Cert.Egnn.silu (x (ix2 p q))
          * Cert.Egnn.edgeGate (fun k => Cert.Egnn.silu (x (ix2 p k))) (fun k => v39 (ix2 (0 : Fin 1) k)) (v45 (ix2 (0 : Fin 1) (0 : Fin 1))) := by
  unfold k0_pay1
  simp only [shapeCast_self, addf_apply, mulf_apply, logistic_at, broadcastTo_1b_ab_apply, broadcast_col, shapeCast_col]
  rw [lane_sum]
  simp only [mulf_apply, logistic_at, broadcastTo_1b_ab_apply]
  rfl

/-- THE PAYLOAD AT AN INDEX: the value the body stores, at row p and column q of its block, is the edge network's
    function of row p of the two feature blocks and of the distance column, with the parameter blocks read whole. -/
theorem payload_at (p : Fin 4000) (q : Fin 128) :
    k0_pay1 (F := Ideal) (k0_pay2 v0 v3 v6 v9 v15 v17 v23 v30 v33) (k0_pay3 v0 v3 v6 v9 v15 v17 v23 v30 v33) v39 v45 (ix2 p q)
      = Cert.Egnn.edgeRow (fun k => v0 (ix2 p k)) (fun k => v3 (ix2 p k)) (v15 (ix2 p (0 : Fin 1)))
          (fun k j => v6 (ix2 k j)) (fun k j => v9 (ix2 k j)) (fun j => v17 (ix2 (0 : Fin 1) j)) (fun j => v23 (ix2 (0 : Fin 1) j))
          (fun k j => v30 (ix2 k j)) (fun j => v33 (ix2 (0 : Fin 1) j)) (fun j => v39 (ix2 (0 : Fin 1) j)) (v45 (ix2 (0 : Fin 1) (0 : Fin 1))) q := by
  have e3 : k0_pay3 (F := Ideal) v0 v3 v6 v9 v15 v17 v23 v30 v33 = logistic (k0_pay2 (F := Ideal) v0 v3 v6 v9 v15 v17 v23 v30 v33) := by
    unfold k0_pay3; rfl
  rw [e3, pay1_at]
  simp only [pay2_at]
  rfl

end Payload

/-! ## From the block to the array -/

theorem hz : (![0, 0] : Fin 2 → Nat) = fun _ => 0 :=
  funext fun a => by match a with | ⟨0, _⟩ => rfl | ⟨1, _⟩ => rfl

/-- What the body leaves in the output block is the edge network applied row by row to the input blocks. -/
theorem out_eq (x0 x1 : Vec Ideal S4000x128 .f32) (x2 : Vec Ideal S4000x1 .f32) (x3 x4 : Vec Ideal S128x128 .f32)
    (x5 x6 : Vec Ideal S1x128 .f32) (x7 : Vec Ideal S128x128 .f32) (x8 x9 : Vec Ideal S1x128 .f32) (x10 : Vec Ideal S1x1 .f32) :
    out0_11 (F := Ideal) x0 x1 x2 x3 x4 x5 x6 x7 x8 x9 x10 = Cert.Egnn.edgeArr (n := 4000) x0 x1 x2 x3 x4 x5 x6 x7 x8 x9 x10 := by
  unfold out0_11
  rw [View.canon_unit_zero hz]
  simp only [View.ld_unit_zero (S := S4000x128) hz, View.ld_unit_zero (S := S128x128) hz, View.ld_unit_zero (S := S4000x1) hz,
    View.ld_unit_zero (S := S1x128) hz, View.ld_unit_zero (S := S1x1) hz]
  funext j
  obtain ⟨p, q, rfl⟩ : ∃ (p : Fin 4000) (q : Fin 128), j = ix2 p q := ⟨j 0, j 1, eq_ix2 j⟩
  rw [payload_at]
  rfl

/-- The edge network on arrays reads, at an index, only that index's row of the row-wise inputs and its column: two
    sets of arrays that agree there give the same value. -/
theorem edgeArr_congr {n N : ℕ}
    (h c : (⟨2, ![n, 128]⟩ : Shape).Idx → EReal) (r : (⟨2, ![n, 1]⟩ : Shape).Idx → EReal)
    (H C : (⟨2, ![N, 128]⟩ : Shape).Idx → EReal) (R : (⟨2, ![N, 1]⟩ : Shape).Idx → EReal)
    (w1a w1b : (⟨2, ![128, 128]⟩ : Shape).Idx → EReal) (w1r b1 : (⟨2, ![1, 128]⟩ : Shape).Idx → EReal)
    (w2 : (⟨2, ![128, 128]⟩ : Shape).Idx → EReal) (b2 war : (⟨2, ![1, 128]⟩ : Shape).Idx → EReal)
    (ba : (⟨2, ![1, 1]⟩ : Shape).Idx → EReal)
    (i : (⟨2, ![n, 128]⟩ : Shape).Idx) (I : (⟨2, ![N, 128]⟩ : Shape).Idx)
    (hh : ∀ k : Fin 128, h (ix2 (i 0 : Fin n) k) = H (ix2 (I 0 : Fin N) k))
    (hc : ∀ k : Fin 128, c (ix2 (i 0 : Fin n) k) = C (ix2 (I 0 : Fin N) k))
    (hr : r (ix2 (i 0 : Fin n) (0 : Fin 1)) = R (ix2 (I 0 : Fin N) (0 : Fin 1)))
    (hq : (i 1 : Fin 128) = (I 1 : Fin 128)) :
    Cert.Egnn.edgeArr h c r w1a w1b w1r b1 w2 b2 war ba i = Cert.Egnn.edgeArr H C R w1a w1b w1r b1 w2 b2 war ba I := by
  unfold Cert.Egnn.edgeArr
  simp only [hh, hc, hr, hq]

/-! ## The windows' blocks, read off the arrays the region was entered with -/

section Windows
variable (V : (c : Dev nD) → (b : Ref sig .tc) → Buf (Elt Ideal) ((c : Thread nD τ).loc b))

/-- The block indices of the row-blocked windows, decided over the 160 grid points: point t takes block t of the
    rows and block 0 of the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The parameter windows sit at block 0 on both axes at every point. -/
theorem idx_params : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Window 0's block at point t is rows 4000·t … 4000·t + 3999 of the first gathered feature array. -/
theorem rows_0 (c : Dev nD) (t : Fin cfg0.N) (p : Fin 4000) (k : Fin 128) (r : Fin 640000) (hr : r.val = t.val * 4000 + p.val) :
    (iblk0 V c 0 t : S4000x128.Idx → Elt Ideal .f32) (ix2 p k) = (V c main_v4 : S640000x128.Idx → Elt Ideal .f32) (ix2 r k) := by
  obtain ⟨e0, e1, -⟩ := idx_rows t
  unfold iblk0
  rw [View.read_apply]
  show (V c main_v4 : S640000x128.Idx → Elt Ideal .f32) _ = _
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- Window 1's block at point t is the same rows of the second gathered feature array. -/
theorem rows_1 (c : Dev nD) (t : Fin cfg0.N) (p : Fin 4000) (k : Fin 128) (r : Fin 640000) (hr : r.val = t.val * 4000 + p.val) :
    (iblk0 V c 1 t : S4000x128.Idx → Elt Ideal .f32) (ix2 p k) = (V c main_v5 : S640000x128.Idx → Elt Ideal .f32) (ix2 r k) := by
  obtain ⟨-, -, e0, e1, -⟩ := idx_rows t
  unfold iblk0
  rw [View.read_apply]
  show (V c main_v5 : S640000x128.Idx → Elt Ideal .f32) _ = _
  congr 1
  funext a
  apply Fin.ext
  match a with
  | ⟨0, _⟩ => show win0_1.index t (0 : Fin 2) * 4000 + 1 * p.val = r.val; omega
  | ⟨1, _⟩ => show win0_1.index t (1 : Fin 2) * 128 + 1 * k.val = k.val; omega

/-- Window 2's block at point t is the same rows of the distance column. -/
theorem rows_2 (c : Dev nD) (t : Fin cfg0.N) (p : Fin 4000) (k : Fin 1) (r : Fin 640000) (hr : r.val = t.val * 4000 + p.val) :
    (iblk0 V c 2 t : S4000x1.Idx → Elt Ideal .f32) (ix2 p k) = (V c main_v11 : S640000x1.Idx → Elt Ideal .f32) (ix2 r k) := by
  obtain ⟨-, -, -, -, e0, e1, -⟩ := idx_rows t
  unfold iblk0
  rw [View.read_apply]
  show (V c main_v11 : S640000x1.Idx → Elt Ideal .f32) _ = _
  congr 1
  funext a
  apply Fin.ext
  match a with
  | ⟨0, _⟩ => show win0_2.index t (0 : Fin 2) * 4000 + 1 * p.val = r.val; omega
  | ⟨1, _⟩ => show win0_2.index t (1 : Fin 2) * 1 + 1 * k.val = k.val; omega

/-- Window 3's block, at every point, is its whole array: the first layer's weights that meet the first feature row. -/
theorem whole_3 (c : Dev nD) (t : Fin cfg0.N) :
    (iblk0 V c 3 t : S128x128.Idx → Elt Ideal .f32) = V c main_v12 := by
  obtain ⟨⟨e0, e1⟩, -, -, -, -, -, -, -⟩ := idx_params t
  unfold iblk0
  funext y
  rw [View.read_apply]
  show (V c main_v12 : S128x128.Idx → Elt Ideal .f32) _ = _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block, at every point, is its whole array: the first layer's weights that meet the second feature row. -/
theorem whole_4 (c : Dev nD) (t : Fin cfg0.N) :
    (iblk0 V c 4 t : S128x128.Idx → Elt Ideal .f32) = V c main_v13 := by
  obtain ⟨-, ⟨e0, e1⟩, -, -, -, -, -, -⟩ := idx_params t
  unfold iblk0
  funext y
  rw [View.read_apply]
  show (V c main_v13 : S128x128.Idx → Elt Ideal .f32) _ = _
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block, at every point, is its whole array: the first layer's weight row that meets the distance. -/
theorem whole_5 (c : Dev nD) (t : Fin cfg0.N) :
    (iblk0 V c 5 t : S1x128.Idx → Elt Ideal .f32) = V c main_v14 := by
  obtain ⟨-, -, ⟨e0, e1⟩, -, -, -, -, -⟩ := idx_params t
  unfold iblk0
  funext y
  rw [View.read_apply]
  show (V c main_v14 : S1x128.Idx → Elt Ideal .f32) _ = _
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block, at every point, is its whole array: the first layer's offset row. -/
theorem whole_6 (c : Dev nD) (t : Fin cfg0.N) :
    (iblk0 V c 6 t : S1x128.Idx → Elt Ideal .f32) = V c main_v15 := by
  obtain ⟨-, -, -, ⟨e0, e1⟩, -, -, -, -⟩ := idx_params t
  unfold iblk0
  funext y
  rw [View.read_apply]
  show (V c main_v15 : S1x128.Idx → Elt Ideal .f32) _ = _
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block, at every point, is its whole array: the second layer's weights. -/
theorem whole_7 (c : Dev nD) (t : Fin cfg0.N) :
    (iblk0 V c 7 t : S128x128.Idx → Elt Ideal .f32) = V c main_arg5 := by
  obtain ⟨-, -, -, -, ⟨e0, e1⟩, -, -, -⟩ := idx_params t
  unfold iblk0
  funext y
  rw [View.read_apply]
  show (V c main_arg5 : S128x128.Idx → Elt Ideal .f32) _ = _
  congr 1
  funext a
  apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block, at every point, is its whole array: the second layer's offset row. -/
theorem whole_8 (c : Dev nD) (t : Fin cfg0.N) :
    (iblk0 V c 8 t : S1x128.Idx → Elt Ideal .f32) = V c main_v16 := by
  obtain ⟨-, -, -, -, -, ⟨e0, e1⟩, -, -⟩ := idx_params t
  unfold iblk0
  funext y
  rw [View.read_apply]
  show (V c main_v16 : S1x128.Idx → Elt Ideal .f32) _ = _
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block, at every point, is its whole array: the gate's weight row. -/
theorem whole_9 (c : Dev nD) (t : Fin cfg0.N) :
    (iblk0 V c 9 t : S1x128.Idx → Elt Ideal .f32) = V c main_v17 := by
  obtain ⟨-, -, -, -, -, -, ⟨e0, e1⟩, -⟩ := idx_params t
  unfold iblk0
  funext y
  rw [View.read_apply]
  show (V c main_v17 : S1x128.Idx → Elt Ideal .f32) _ = _
  congr 1
  funext a
  apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block, at every point, is its whole array: the gate's offset cell. -/
theorem whole_10 (c : Dev nD) (t : Fin cfg0.N) :
    (iblk0 V c 10 t : S1x1.Idx → Elt Ideal .f32) = V c main_v18 := by
  obtain ⟨-, -, -, -, -, -, -, ⟨e0, e1⟩⟩ := idx_params t
  unfold iblk0
  funext y
  rw [View.read_apply]
  show (V c main_v18 : S1x1.Idx → Elt Ideal .f32) _ = _
  congr 1
  funext a
  apply Fin.ext
  match a with
  | ⟨0, _⟩ => show win0_10.index t (0 : Fin 2) * 1 + 1 * (y 0).val = (y 0).val; omega
  | ⟨1, _⟩ => show win0_10.index t (1 : Fin 2) * 1 + 1 * (y 1).val = (y 1).val; omega

end Windows

/-! ## What a point writes back, the cover, and the array -/

section Array
variable (V : (c : Dev nD) → (b : Ref sig .tc) → Buf (Elt Ideal) ((c : Thread nD τ).loc b))

/-- WHAT POINT t WRITES BACK is block t of the edge network applied row by row to the arrays the region was entered
    with. -/
theorem flushed_eq (c : Dev nD) (t : Fin cfg0.N) :
    (dat0 (F := Ideal) V c).flushed 11 t
      = ((cfg0.win 11).blk t).view.read (Elt Ideal)
          (Cert.Egnn.edgeArr (V c main_v4) (V c main_v5) (V c main_v11) (V c main_v12) (V c main_v13) (V c main_v14)
            (V c main_v15) (V c main_arg5) (V c main_v16) (V c main_v17) (V c main_v18)) := by
  show (cfg0.win 11).cut (grid0.coords t) ((dat0 (F := Ideal) V c).after 11 t) = _
  rw [after0_11]
  rw [out_eq (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t)]
  rw [whole_3 V c t, whole_4 V c t, whole_5 V c t, whole_6 V c t, whole_7 V c t, whole_8 V c t, whole_9 V c t, whole_10 V c t]
  obtain ⟨-, -, -, -, -, -, e0, e1⟩ := idx_rows t
  funext j
  show Cert.Egnn.edgeArr (n := 4000) (iblk0 V c 0 t) (iblk0 V c 1 t) (iblk0 V c 2 t) (V c main_v12) (V c main_v13) (V c main_v14)
        (V c main_v15) (V c main_arg5) (V c main_v16) (V c main_v17) (V c main_v18) j
      = Cert.Egnn.edgeArr (n := 640000) (V c main_v4) (V c main_v5) (V c main_v11) (V c main_v12) (V c main_v13) (V c main_v14)
        (V c main_v15) (V c main_arg5) (V c main_v16) (V c main_v17) (V c main_v18) (((cfg0.win 11).blk t).view.emb j)
  have h0 : ((((cfg0.win 11).blk t).view.emb j) 0 : Fin 640000).val = t.val * 4000 + (j 0 : Fin 4000).val := by
    show win0_11.index t (0 : Fin 2) * 4000 + 1 * (j 0).val = _
    rw [e0]; omega
  have h1 : ((((cfg0.win 11).blk t).view.emb j) 1 : Fin 128).val = (j 1 : Fin 128).val := by
    show win0_11.index t (1 : Fin 2) * 128 + 1 * (j 1).val = _
    rw [e1]; omega
  exact edgeArr_congr _ _ _ _ _ _ _ _ _ _ _ _ _ _ j _
    (fun k => rows_0 V c t _ k _ h0) (fun k => rows_1 V c t _ k _ h0) (rows_2 V c t _ _ _ h0) (Fin.ext h1.symm)

/-- An index of the message array is in point t's block iff each coordinate is in the block's range on its axis. -/
theorem mem_blk (t : Fin cfg0.N) (i : S640000x128.Idx) :
    i ∈ ((cfg0.win 11).blk t).view.set
      ↔ ∀ a : Fin 2, win0_11.index t a * S4000x128.size a ≤ (i a).val ∧ (i a).val < win0_11.index t a * S4000x128.size a + S4000x128.size a := by
  show i ∈ ((View.whole main_v19).slice (win0_11.rect t)).set ↔ _
  rw [View.set_slice_whole, Rect.mem_set_unit]
  exact Iff.rfl

/-- Every row r of the message array lies in the block of point r / 4000, which writes back. -/
theorem cover (i : S640000x128.Idx) :
    ∃ t : Fin cfg0.N, (cfg0.win 11).flush t = true ∧ i ∈ ((cfg0.win 11).blk t).view.set := by
  have hN : grid0.N = 160 := N_0
  have hi0 : (i 0).val < 640000 := idx2_lt0 i
  have hi1 : (i 1).val < 128 := idx2_lt1 i
  refine ⟨⟨(i 0).val / 4000, by show _ < grid0.N; rw [hN]; omega⟩, flush0_11 _, ?_⟩
  rw [mem_blk]
  obtain ⟨-, -, -, -, -, -, e0, e1⟩ := idx_rows ⟨(i 0).val / 4000, by show _ < grid0.N; rw [hN]; omega⟩
  intro a
  match a with
  | ⟨0, _⟩ =>
    show win0_11.index _ (0 : Fin 2) * 4000 ≤ (i 0).val ∧ (i 0).val < win0_11.index _ (0 : Fin 2) * 4000 + 4000
    rw [e0]; show (i 0).val / 4000 * 4000 ≤ (i 0).val ∧ (i 0).val < (i 0).val / 4000 * 4000 + 4000; omega
  | ⟨1, _⟩ =>
    show win0_11.index _ (1 : Fin 2) * 128 ≤ (i 1).val ∧ (i 1).val < win0_11.index _ (1 : Fin 2) * 128 + 128
    rw [e1]; omega

end Array

variable (V : (c : Dev nD) → (b : Ref sig .tc) → Buf (Elt Ideal) ((c : Thread nD τ).loc b))

/-- After the 160 grid points, the message array is the edge network applied row by row to the arrays the
    region was entered with. -/
theorem edge_array (c : Dev nD) :
    (dat0 (F := Ideal) V c).arrAt 11 cfg0.N
      = Cert.Egnn.edgeArr (V c main_v4) (V c main_v5) (V c main_v11) (V c main_v12) (V c main_v13) (V c main_v14)
          (V c main_v15) (V c main_arg5) (V c main_v16) (V c main_v17) (V c main_v18) :=
  (dat0 (F := Ideal) V c).arrAt_eq_of_cover 11 _ (fun t _ => flushed_eq V c t) cover

end Cert.KernelIdeal.EdgeValue

end
-- ==== Proof.Node.lean ====
/-
  What the second region leaves in its output array: every row is the node network's function of the same
  row of the feature array and of the summed-message array, with the parameter arrays read whole.
-/
import proofs.«428158_j1829656068677_1_alg».proof.Proof.Gen.KernelIdeal.Frame
import proofs.«428158_j1829656068677_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open Idealize.ShloMosaic.ValueIdx

/-! ## A block of rows times a 128×128 matrix, read at an index

The contraction runs over the second axis of the left operand and the first axis of the right one: the
left operand is read at (row, k), the right one at (k, column). -/

theorem rowsLeft_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rowsLeft_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem matRight_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem matRight_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into the zero array is, at (p, q), the sum over k of left (p, k) · right (k, q),
    for any left operand (an input block or an intermediate array). -/
theorem rows_times_matrix (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact rowsLeft_axis0 _ _
    | ⟨1, _⟩ => exact (rowsLeft_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (matRight_axis0 _ _).trans hk
    | ⟨1, _⟩ => exact matRight_axis1 _ _)
  rw [el, er]

/-- The activation of an array at an index is the activation of its element. -/
theorem logistic_at {s : Shape} {φ : FTy} (x : FVec Ideal s φ) (i : s.Idx) : logistic x i = Ideal.logistic (x i) := rfl

/-! ## The body's stored value at an index -/

/-- The one value the body stores, at row p and column q of its block, is the node network's row function of
    row p of the two row-blocked operands. -/
theorem stored_at (x0 x1 : Vec Ideal S5000x128 .f32) (w3a w3b : Vec Ideal S128x128 .f32) (b3 : Vec Ideal S1x128 .f32)
    (w4 : Vec Ideal S128x128 .f32) (b4 : Vec Ideal S1x128 .f32) (p : Fin 5000) (q : Fin 128) :
    k1_pay1 (F := Ideal) x0 x1 w3a w3b b3 w4 b4 (ix2 p q)
      = Cert.Egnn.nodeRow (fun k => x0 (ix2 p k)) (fun k => x1 (ix2 p k)) (fun k j => w3a (ix2 k j)) (fun k j => w3b (ix2 k j))
          (fun j => b3 (ix2 (0 : Fin 1) j)) (fun k j => w4 (ix2 k j)) (fun j => b4 (ix2 (0 : Fin 1) j)) q := by
  unfold k1_pay1
  simp only [shapeCast_self]
  simp only [addf_apply, rows_times_matrix, broadcastTo_1b_ab_apply, truncf_apply, mulf_apply, logistic_at]
  rfl

/-! ## Where each window's block sits in its array

Decided once over the 8 grid points: the two row-blocked operands and the result move with the point
along the rows, 5000 rows a point; every parameter window stays at block 0. -/

theorem hz : (![0, 0] : Fin 2 → Nat) = fun _ => 0 := funext fun a => by fin_cases a <;> rfl

theorem index_feat : ∀ t : Fin cfg1.N, win1_0.index t (0 : Fin 2) = t.val ∧ win1_0.index t (1 : Fin 2) = 0 :=
  (by decide +kernel : ∀ t : Fin grid1.N, _)
theorem index_agg : ∀ t : Fin cfg1.N, win1_1.index t (0 : Fin 2) = t.val ∧ win1_1.index t (1 : Fin 2) = 0 :=
  (by decide +kernel : ∀ t : Fin grid1.N, _)
theorem index_w3a : ∀ t : Fin cfg1.N, win1_2.index t (0 : Fin 2) = 0 ∧ win1_2.index t (1 : Fin 2) = 0 :=
  (by decide +kernel : ∀ t : Fin grid1.N, _)
theorem index_w3b : ∀ t : Fin cfg1.N, win1_3.index t (0 : Fin 2) = 0 ∧ win1_3.index t (1 : Fin 2) = 0 :=
  (by decide +kernel : ∀ t : Fin grid1.N, _)
theorem index_b3 : ∀ t : Fin cfg1.N, win1_4.index t (0 : Fin 2) = 0 ∧ win1_4.index t (1 : Fin 2) = 0 :=
  (by decide +kernel : ∀ t : Fin grid1.N, _)
theorem index_w4 : ∀ t : Fin cfg1.N, win1_5.index t (0 : Fin 2) = 0 ∧ win1_5.index t (1 : Fin 2) = 0 :=
  (by decide +kernel : ∀ t : Fin grid1.N, _)
theorem index_b4 : ∀ t : Fin cfg1.N, win1_6.index t (0 : Fin 2) = 0 ∧ win1_6.index t (1 : Fin 2) = 0 :=
  (by decide +kernel : ∀ t : Fin grid1.N, _)
theorem index_out : ∀ t : Fin cfg1.N, win1_7.index t (0 : Fin 2) = t.val ∧ win1_7.index t (1 : Fin 2) = 0 :=
  (by decide +kernel : ∀ t : Fin grid1.N, _)

/-! ## Each input block, read at an index, is its array at the index the block's place gives -/

/-- Row p of the feature block at point t is row 5000·t + p of the feature array. -/
theorem feat_block_at (c : Dev nD) (t : Fin cfg1.N) (p : Fin 5000) (k : Fin 128) (r : Fin 40000)
    (hr : r.val = t.val * 5000 + p.val) :
    (iblk1 (F := Ideal) V c 0 t : Vec Ideal S5000x128 .f32) (ix2 p k) = (V c main_arg0 : Vec Ideal S40000x128 .f32) (ix2 r k) := by
  obtain ⟨h0, h1⟩ := index_feat t
  unfold iblk1
  rw [View.read_apply]
  show V c main_arg0 _ = V c main_arg0 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of the summed-message block at point t is row 5000·t + p of the summed-message array. -/
theorem agg_block_at (c : Dev nD) (t : Fin cfg1.N) (p : Fin 5000) (k : Fin 128) (r : Fin 40000)
    (hr : r.val = t.val * 5000 + p.val) :
    (iblk1 (F := Ideal) V c 1 t : Vec Ideal S5000x128 .f32) (ix2 p k) = (V c main_v22 : Vec Ideal S40000x128 .f32) (ix2 r k) := by
  obtain ⟨h0, h1⟩ := index_agg t
  unfold iblk1
  rw [View.read_apply]
  show V c main_v22 _ = V c main_v22 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The first weight matrix's window holds the whole matrix at every point. -/
theorem w3a_block_at (c : Dev nD) (t : Fin cfg1.N) (k j : Fin 128) :
    (iblk1 (F := Ideal) V c 2 t : Vec Ideal S128x128 .f32) (ix2 k j) = (V c main_v23 : Vec Ideal S128x128 .f32) (ix2 k j) := by
  obtain ⟨h0, h1⟩ := index_w3a t
  unfold iblk1
  rw [View.read_apply]
  show V c main_v23 _ = V c main_v23 _
  congr 1
  funext a
  apply Fin.ext
  match a with
  | ⟨0, _⟩ => show win1_2.index t (0 : Fin 2) * 128 + 1 * k.val = k.val; omega
  | ⟨1, _⟩ => show win1_2.index t (1 : Fin 2) * 128 + 1 * j.val = j.val; omega

/-- So does the second weight matrix's. -/
theorem w3b_block_at (c : Dev nD) (t : Fin cfg1.N) (k j : Fin 128) :
    (iblk1 (F := Ideal) V c 3 t : Vec Ideal S128x128 .f32) (ix2 k j) = (V c main_v24 : Vec Ideal S128x128 .f32) (ix2 k j) := by
  obtain ⟨h0, h1⟩ := index_w3b t
  unfold iblk1
  rw [View.read_apply]
  show V c main_v24 _ = V c main_v24 _
  congr 1
  funext a
  apply Fin.ext
  match a with
  | ⟨0, _⟩ => show win1_3.index t (0 : Fin 2) * 128 + 1 * k.val = k.val; omega
  | ⟨1, _⟩ => show win1_3.index t (1 : Fin 2) * 128 + 1 * j.val = j.val; omega

/-- The first offset row's window holds the whole row at every point. -/
theorem b3_block_at (c : Dev nD) (t : Fin cfg1.N) (j : Fin 128) :
    (iblk1 (F := Ideal) V c 4 t : Vec Ideal S1x128 .f32) (ix2 (0 : Fin 1) j) = (V c main_v25 : Vec Ideal S1x128 .f32) (ix2 (0 : Fin 1) j) := by
  obtain ⟨h0, h1⟩ := index_b3 t
  unfold iblk1
  rw [View.read_apply]
  show V c main_v25 _ = V c main_v25 _
  congr 1
  funext a
  apply Fin.ext
  match a with
  | ⟨0, _⟩ => show win1_4.index t (0 : Fin 2) * 1 + 1 * (0 : Fin 1).val = (0 : Fin 1).val; omega
  | ⟨1, _⟩ => show win1_4.index t (1 : Fin 2) * 128 + 1 * j.val = j.val; omega

/-- The last weight matrix's window holds the whole matrix at every point. -/
theorem w4_block_at (c : Dev nD) (t : Fin cfg1.N) (k j : Fin 128) :
    (iblk1 (F := Ideal) V c 5 t : Vec Ideal S128x128 .f32) (ix2 k j) = (V c main_arg11 : Vec Ideal S128x128 .f32) (ix2 k j) := by
  obtain ⟨h0, h1⟩ := index_w4 t
  unfold iblk1
  rw [View.read_apply]
  show V c main_arg11 _ = V c main_arg11 _
  congr 1
  funext a
  apply Fin.ext
  match a with
  | ⟨0, _⟩ => show win1_5.index t (0 : Fin 2) * 128 + 1 * k.val = k.val; omega
  | ⟨1, _⟩ => show win1_5.index t (1 : Fin 2) * 128 + 1 * j.val = j.val; omega

/-- The last offset row's window holds the whole row at every point. -/
theorem b4_block_at (c : Dev nD) (t : Fin cfg1.N) (j : Fin 128) :
    (iblk1 (F := Ideal) V c 6 t : Vec Ideal S1x128 .f32) (ix2 (0 : Fin 1) j) = (V c main_v26 : Vec Ideal S1x128 .f32) (ix2 (0 : Fin 1) j) := by
  obtain ⟨h0, h1⟩ := index_b4 t
  unfold iblk1
  rw [View.read_apply]
  show V c main_v26 _ = V c main_v26 _
  congr 1
  funext a
  apply Fin.ext
  match a with
  | ⟨0, _⟩ => show win1_6.index t (0 : Fin 2) * 1 + 1 * (0 : Fin 1).val = (0 : Fin 1).val; omega
  | ⟨1, _⟩ => show win1_6.index t (1 : Fin 2) * 128 + 1 * j.val = j.val; omega

/-! ## What a point writes back -/

/-- The block point t writes back is block t of the node network applied row by row to the arrays the region
    was entered with. -/
theorem flushed_eq (c : Dev nD) (t : Fin cfg1.N) :
    (dat1 (F := Ideal) V c).flushed 7 t = ((cfg1.win 7).blk t).view.read (Elt Ideal)
      (Cert.Egnn.nodeArr (V c main_arg0) (V c main_v22) (V c main_v23) (V c main_v24) (V c main_v25) (V c main_arg11) (V c main_v26)) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨h0, h1⟩ := index_out t
  have ht : t.val < 8 := lt_of_lt_of_eq t.isLt N_1
  funext j
  obtain ⟨p, q, rfl⟩ : ∃ (p : Fin 5000) (q : Fin 128), j = ix2 p q := ⟨j 0, j 1, eq_ix2 j⟩
  obtain ⟨r, hr⟩ : ∃ r : Fin 40000, r.val = t.val * 5000 + p.val := ⟨⟨t.val * 5000 + p.val, by have := p.isLt; omega⟩, rfl⟩
  have hE : ((cfg1.win 7).blk t).view.emb (ix2 p q) = (ix2 r q : S40000x128.Idx) := by
    funext a
    apply Fin.ext
    match a with
    | ⟨0, _⟩ => show win1_7.index t (0 : Fin 2) * 5000 + 1 * p.val = r.val; omega
    | ⟨1, _⟩ => show win1_7.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
    = Cert.Egnn.nodeArr (V c main_arg0) (V c main_v22) (V c main_v23) (V c main_v24) (V c main_v25) (V c main_arg11) (V c main_v26)
        (((cfg1.win 7).blk t).view.emb (ix2 p q))
  rw [hE, stored_at]
  unfold Cert.Egnn.nodeArr
  simp only [feat_block_at V c t p _ r hr, agg_block_at V c t p _ r hr, w3a_block_at V c t, w3b_block_at V c t, b3_block_at V c t,
    w4_block_at V c t, b4_block_at V c t]

/-! ## The blocks cover the array -/

/-- An index of the result array is in point t's block iff each coordinate is in the block's range on its axis. -/
theorem mem_block (t : Fin cfg1.N) (i : S40000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v27).slice (win1_7.rect t)).set ↔ _
  rw [View.set_slice_whole, Rect.mem_set_unit]
  exact Iff.rfl

/-- Row r of the result array lies in the block of point r / 5000, which is written back. -/
theorem covered (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  obtain ⟨t, ht⟩ : ∃ t : Fin cfg1.N, t.val = (i 0).val / 5000 :=
    ⟨⟨(i 0).val / 5000, lt_of_lt_of_eq (show (i 0).val / 5000 < 8 by omega) N_1.symm⟩, rfl⟩
  obtain ⟨h0, h1⟩ := index_out t
  refine ⟨t, flush1_7 t, ?_⟩
  rw [mem_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- After the 8 grid points, the result array is the node network applied row by row to the arrays the
    region was entered with. -/
theorem node_array (c : Dev nD) :
    (dat1 (F := Ideal) V c).arrAt 7 cfg1.N
      = Cert.Egnn.nodeArr (V c main_arg0) (V c main_v22) (V c main_v23) (V c main_v24) (V c main_v25) (V c main_arg11)
          (V c main_v26) :=
  (dat1 (F := Ideal) V c).arrAt_eq_of_cover 7 _ (fun t _ => flushed_eq V c t) covered

end Cert.KernelIdeal.NodeValue

end
-- ==== Proof.IdxPre.lean ====
/-
  What the precondition says of the index array, and what it buys: every entry of the 2×E index array lies in
  [0, 40000), so no index is negative, the wrapped index is the index itself, it lies inside the 40000-row arrays,
  and the row fetch never takes its not-a-number fill: it is the plain fetch at the wrapped indices.
-/
import proofs.«428158_j1829656068677_1_alg».proof.Defs
import proofs.«428158_j1829656068677_1_alg».proof.Proof.Gen.Pre_finite_inputs
import proofs.«428158_j1829656068677_1_alg».proof.Proof.HostDefs
import Idealize.ShloMosaic.Lib.ReduceAll
import Idealize.ShloMosaic.Lib.StableHlo.Predicate
import Idealize.ShloMosaic.Lib.ValueLayout

noncomputable section

namespace Cert.KernelIdeal.HostValue

open Cert.KernelIdeal Cert.KernelIdeal.Facts₀ Cert.KernelIdeal.Facts
open Idealize.ShloMosaic Idealize.ShloMosaic.TcCoe Idealize.SL.Sem

open Idealize.ShloMosaic.ValueIdx

/-! ## The precondition, read at an entry of the index array -/

/-- A word that, read as a signed integer, names one of the 40000 nodes. -/
def InNodes (w : BitVec 32) : Prop := 0 ≤ w.toInt ∧ w.toInt < 40000

instance : Subsingleton Cert.Pre_finite_inputs.S_.Idx := ⟨fun a b => funext fun d => d.elim0⟩

/-- The last two conjuncts of the precondition say of every entry of the 2×E index array that it is at least 0
    and below 40000, signed: the conjunction is 1, so each conjunct is, and a conjunction over all entries that is
    1 met only 1s. -/
theorem entries_in_nodes (m : (ℓ : Loc nD τ sig) → Buf (Elt Ideal) ℓ) (hpre : Cert.Pre_KernelIdeal m) (c : Dev nD)
    (i : S2x640000.Idx) : InNodes ((m ((c.tc : Thread nD τ).loc main_arg2) : IVec S2x640000 32) i) := by
  have e := congrFun (hpre c) ValueIdx.ix0
  dsimp only [Cert.Pre_finite_inputs.fn, Cert.Pre_finite_inputs.fn_part1, Cert.Pre_finite_inputs.fn_part2,
    Cert.Pre_finite_inputs.fn_part3] at e
  change IntOp.andi (IntOp.andi _ _) _ = 1#1 at e
  obtain ⟨e1, hlt⟩ := IntOp.andi_eq_one.1 e
  obtain ⟨-, hge⟩ := IntOp.andi_eq_one.1 e1
  have h0 := IntOp.cmpi_sge.1 (Host.reduce_andi_all _ _ _ _ _ hge i)
  have h1 := IntOp.cmpi_slt.1 (Host.reduce_andi_all _ _ _ _ _ hlt i)
  have z0 : (0#32 : BitVec 32).toInt = 0 := by decide
  have z1 : (40000#32 : BitVec 32).toInt = 40000 := StableHlo.Predicate.toInt_ofNat_small 40000 (by decide)
  exact ⟨z0 ▸ h0, z1 ▸ h1⟩

/-! ## The two rows of the index array -/

/-- Entry e of the source vector is entry (0, e) of the index array. -/
theorem srcIdx_at (x2 : IVec S2x640000 32) (k : Fin 640000) : srcIdx x2 (ix1 k) = x2 (ix2 (0 : Fin 2) k) := by
  unfold srcIdx
  rw [shapeCast_1a_a_apply, slice2_axis0_apply 0 x2 _ (0 : Fin 1) k (0 : Fin 2) rfl]

/-- Entry e of the target vector is entry (1, e) of the index array. -/
theorem dstIdx_at (x2 : IVec S2x640000 32) (k : Fin 640000) : dstIdx x2 (ix1 k) = x2 (ix2 (1 : Fin 2) k) := by
  unfold dstIdx
  rw [shapeCast_1a_a_apply, slice2_axis0_apply 1 x2 _ (0 : Fin 1) k (1 : Fin 2) rfl]

/-! ## An index vector whose entries all name nodes -/

/-- A conjunction, taken from 1, over a list of bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_ones f l _ ?_ (fun n hn => h n (List.mem_cons_of_mem _ hn))
    rw [hi, h a (List.mem_cons_self ..)]
    decide

/-- No entry is negative, so the shift by the number of nodes is never taken. -/
theorem unshifted_at (v : IVec S640000 32) (hv : ∀ e, InNodes (v e)) (e : S640000.Idx) :
    select (cmpi .slt v (broadcastInDim S640000 ![] bcast_S_S640000 (constantI S_ 32 0#32)))
      (addi v (broadcastInDim S640000 ![] bcast_S_S640000 (constantI S_ 32 40000#32))) v e = v e := by
  show Scalar.select (IntOp.cmpi .slt (v e) 0#32) _ (v e) = v e
  have z0 : (0#32 : BitVec 32).toInt = 0 := by decide
  have hn : ¬ IntOp.cmpi .slt (v e) 0#32 = 1#1 := fun h => by
    have h' := IntOp.cmpi_slt.1 h
    have := (hv e).1
    omega
  rw [eq_zero_of_ne_one hn, select_zero]

/-- Every entry of the column of wrapped indices is an entry of the index vector itself. -/
theorem wrapIdx_at (v : IVec S640000 32) (hv : ∀ e, InNodes (v e)) (j : S640000x1.Idx) : ∃ e, wrapIdx v j = v e := by
  unfold wrapIdx broadcastInDim
  exact ⟨_, unshifted_at v hv _⟩

/-- So every wrapped index lies in [0, 39999]. -/
theorem inRange_wrapIdx (v : IVec S640000 32) (hv : ∀ e, InNodes (v e)) (e : S640000.Idx) : inRange (wrapIdx v) e = 1#1 := by
  unfold inRange
  rw [Host.reduce_eq_foldl]
  refine foldl_andi_ones _ _ _ rfl (fun i _ => ?_)
  obtain ⟨e', he'⟩ := wrapIdx_at v hv i
  show IntOp.andi (IntOp.cmpi .sge (wrapIdx v i) 0#32) (IntOp.cmpi .sle (wrapIdx v i) 39999#32) = 1#1
  rw [he']
  have z0 : (0#32 : BitVec 32).toInt = 0 := by decide
  have z1 : (39999#32 : BitVec 32).toInt = 39999 := StableHlo.Predicate.toInt_ofNat_small 39999 (by decide)
  obtain ⟨h0, h1⟩ := hv e'
  exact IntOp.andi_eq_one.2 ⟨IntOp.cmpi_sge.2 (by omega), IntOp.cmpi_sle.2 (by omega)⟩

/-- A choice by a mask that is 1 everywhere is its first operand. -/
theorem select_of_ones {s : Shape} {α : Type} (c : IVec s 1) (a b : s.Idx → α) (hc : ∀ i, c i = 1#1) : select c a b = a :=
  funext fun i => by rw [select_apply, hc i, select_one]

/-- The feature rows fetched for such an index vector never take the fill. -/
theorem takeRows_eq (x0 : FVec Ideal S40000x128 .f32) (v : IVec S640000 32) (hv : ∀ e, InNodes (v e)) :
    takeRows (F := Ideal) x0 v = Host.gather gather_S40000x128_S640000x1_S640000x128_1_0_n_n_0_1_1128 x0 (wrapIdx v) := by
  unfold takeRows
  exact select_of_ones _ _ _ (fun i => by unfold broadcastInDim; exact inRange_wrapIdx v hv _)

/-- Nor do the coordinate rows. -/
theorem takeCoords_eq (x1 : FVec Ideal S40000x3 .f32) (v : IVec S640000 32) (hv : ∀ e, InNodes (v e)) :
    takeCoords (F := Ideal) x1 v = Host.gather gather_S40000x3_S640000x1_S640000x3_1_0_n_n_0_1_13 x1 (wrapIdx v) := by
  unfold takeCoords
  exact select_of_ones _ _ _ (fun i => by unfold broadcastInDim; exact inRange_wrapIdx v hv _)

/-- Under the precondition the four row fetches of the kernel program (features and coordinates, at the source
    and at the target node of every edge) are the plain fetches at the wrapped indices. -/
theorem take_eq_gather (m : (ℓ : Loc nD τ sig) → Buf (Elt Ideal) ℓ) (hpre : Cert.Pre_KernelIdeal m) (c : Dev nD) :
    takeRows (F := Ideal) (m ((c.tc : Thread nD τ).loc main_arg0)) (srcIdx (m ((c.tc : Thread nD τ).loc main_arg2)))
        = Host.gather gather_S40000x128_S640000x1_S640000x128_1_0_n_n_0_1_1128 (m ((c.tc : Thread nD τ).loc main_arg0))
            (wrapIdx (srcIdx (m ((c.tc : Thread nD τ).loc main_arg2))))
    ∧ takeRows (F := Ideal) (m ((c.tc : Thread nD τ).loc main_arg0)) (dstIdx (m ((c.tc : Thread nD τ).loc main_arg2)))
        = Host.gather gather_S40000x128_S640000x1_S640000x128_1_0_n_n_0_1_1128 (m ((c.tc : Thread nD τ).loc main_arg0))
            (wrapIdx (dstIdx (m ((c.tc : Thread nD τ).loc main_arg2))))
    ∧ takeCoords (F := Ideal) (m ((c.tc : Thread nD τ).loc main_arg1)) (srcIdx (m ((c.tc : Thread nD τ).loc main_arg2)))
        = Host.gather gather_S40000x3_S640000x1_S640000x3_1_0_n_n_0_1_13 (m ((c.tc : Thread nD τ).loc main_arg1))
            (wrapIdx (srcIdx (m ((c.tc : Thread nD τ).loc main_arg2))))
    ∧ takeCoords (F := Ideal) (m ((c.tc : Thread nD τ).loc main_arg1)) (dstIdx (m ((c.tc : Thread nD τ).loc main_arg2)))
        = Host.gather gather_S40000x3_S640000x1_S640000x3_1_0_n_n_0_1_13 (m ((c.tc : Thread nD τ).loc main_arg1))
            (wrapIdx (dstIdx (m ((c.tc : Thread nD τ).loc main_arg2)))) := by
  have hs : ∀ e, InNodes (srcIdx (m ((c.tc : Thread nD τ).loc main_arg2)) e) := fun e => by
    obtain ⟨k, rfl⟩ : ∃ k : Fin 640000, e = ix1 k := ⟨e 0, eq_ix1 e⟩
    rw [srcIdx_at]; exact entries_in_nodes m hpre c _
  have hd : ∀ e, InNodes (dstIdx (m ((c.tc : Thread nD τ).loc main_arg2)) e) := fun e => by
    obtain ⟨k, rfl⟩ : ∃ k : Fin 640000, e = ix1 k := ⟨e 0, eq_ix1 e⟩
    rw [dstIdx_at]; exact entries_in_nodes m hpre c _
  exact ⟨takeRows_eq _ _ hs, takeRows_eq _ _ hd, takeCoords_eq _ _ hs, takeCoords_eq _ _ hd⟩

end Cert.KernelIdeal.HostValue

end
-- ==== Proof.Bridge.lean ====
/-
  Where the two programs meet. Their host operations are the same operations (each program names its own copies
  of the shapes and of the fetch and scatter descriptions, which are equal term by term), so the index vectors, the
  plain row fetches, the squared distances and the scatter-add of one are those of the other. The kernel program
  hands its regions the parameter arrays cut, re-laid and transposed; entry by entry those are the views of the
  uncut arrays that the specification reads.
-/
import proofs.«428158_j1829656068677_1_alg».proof.Proof.HostDefs
import proofs.«428158_j1829656068677_1_alg».proof.Proof.RefRead
import Idealize.ShloMosaic.Lib.Pipeline.Value
import Idealize.ShloMosaic.Lib.ValueIdx

noncomputable section

namespace Cert.Bridge

open Idealize.ShloMosaic Idealize.ShloMosaic.ValueIdx
open Cert.KernelIdeal.HostValue

/-! ## The host operations of the two programs are the same terms -/

section Host
variable {F : FTy → Type} [FloatOps F]

theorem src_eq (x2 : IVec Cert.KernelIdeal.S2x640000 32) :
    srcIdx x2 = Cert.ReferenceIdeal.ReadP.val_main_v1 (F := F) x2 := rfl

theorem fetch_src_eq (x0 : FVec F Cert.KernelIdeal.S40000x128 .f32) (x2 : IVec Cert.KernelIdeal.S2x640000 32) :
    Host.gather Cert.KernelIdeal.gather_S40000x128_S640000x1_S640000x128_1_0_n_n_0_1_1128 x0 (wrapIdx (srcIdx x2))
      = Cert.ReferenceIdeal.ReadP.val_main_v28 (F := F) x0 x2 := rfl

theorem fetch_dst_eq (x0 : FVec F Cert.KernelIdeal.S40000x128 .f32) (x2 : IVec Cert.KernelIdeal.S2x640000 32) :
    Host.gather Cert.KernelIdeal.gather_S40000x128_S640000x1_S640000x128_1_0_n_n_0_1_1128 x0 (wrapIdx (dstIdx x2))
      = Cert.ReferenceIdeal.ReadP.val_main_v35 (F := F) x0 x2 := rfl

theorem sqDist_eq (x1 : FVec F Cert.KernelIdeal.S40000x3 .f32) (x2 : IVec Cert.KernelIdeal.S2x640000 32) :
    sqDist (Host.gather Cert.KernelIdeal.gather_S40000x3_S640000x1_S640000x3_1_0_n_n_0_1_13 x1 (wrapIdx (srcIdx x2)))
        (Host.gather Cert.KernelIdeal.gather_S40000x3_S640000x1_S640000x3_1_0_n_n_0_1_13 x1 (wrapIdx (dstIdx x2)))
      = Cert.ReferenceIdeal.ReadP.val_main_v21 (F := F) x1 x2 := rfl

theorem summed_eq (x2 : IVec Cert.KernelIdeal.S2x640000 32) (msgs : FVec F Cert.KernelIdeal.S640000x128 .f32) :
    summed x2 msgs
      = Host.scatterAdd Cert.ReferenceIdeal.scatter_S40000x128_S640000x1_S640000x128_1_0_0_1
          (Cert.ReferenceIdeal.ReadP.val_main_v59 (F := F)) (Cert.ReferenceIdeal.ReadP.val_main_v60 (F := F) x2) msgs := rfl

end Host

/-! ## The kernel program's parameter cuts are the specification's views -/

open Cert.KernelIdeal in
theorem w1a_view (x3 : FVec Ideal S257x128 .f32) : w1aOf (F := Ideal) x3 = Cert.Egnn.rowsFrom 0 (by decide) x3 := by
  funext j
  unfold w1aOf Cert.Egnn.rowsFrom
  exact extractStridedSlice_apply ![0, 0] x3 _ j _ (fun a => match a with
    | ⟨0, _⟩ => rfl
    | ⟨1, _⟩ => by show (j 1).val = 0 + (j 1).val; omega)

open Cert.KernelIdeal in
theorem w1b_view (x3 : FVec Ideal S257x128 .f32) : w1bOf (F := Ideal) x3 = Cert.Egnn.rowsFrom 128 (by decide) x3 := by
  funext j
  unfold w1bOf Cert.Egnn.rowsFrom
  exact extractStridedSlice_apply ![128, 0] x3 _ j _ (fun a => match a with
    | ⟨0, _⟩ => rfl
    | ⟨1, _⟩ => by show (j 1).val = 0 + (j 1).val; omega)

open Cert.KernelIdeal in
theorem w1r_view (x3 : FVec Ideal S257x128 .f32) : w1rOf (F := Ideal) x3 = Cert.Egnn.rowAt 256 (by decide) x3 := by
  funext j
  unfold w1rOf Cert.Egnn.rowAt
  exact extractStridedSlice_apply ![256, 0] x3 _ j _ (fun a => match a with
    | ⟨0, _⟩ => by have h0 : (j 0).val < 1 := (j 0).isLt; show 256 = 256 + (j 0).val; omega
    | ⟨1, _⟩ => by show (j 1).val = 0 + (j 1).val; omega)

open Cert.KernelIdeal in
theorem w3a_view (x9 : FVec Ideal S256x128 .f32) : w3aOf (F := Ideal) x9 = Cert.Egnn.rowsFrom 0 (by decide) x9 := by
  funext j
  unfold w3aOf Cert.Egnn.rowsFrom
  exact extractStridedSlice_apply ![0, 0] x9 _ j _ (fun a => match a with
    | ⟨0, _⟩ => rfl
    | ⟨1, _⟩ => by show (j 1).val = 0 + (j 1).val; omega)

open Cert.KernelIdeal in
theorem w3b_view (x9 : FVec Ideal S256x128 .f32) : w3bOf (F := Ideal) x9 = Cert.Egnn.rowsFrom 128 (by decide) x9 := by
  funext j
  unfold w3bOf Cert.Egnn.rowsFrom
  exact extractStridedSlice_apply ![128, 0] x9 _ j _ (fun a => match a with
    | ⟨0, _⟩ => rfl
    | ⟨1, _⟩ => by show (j 1).val = 0 + (j 1).val; omega)

open Cert.KernelIdeal in
theorem bias_view (b : FVec Ideal S128 .f32) : biasRow (F := Ideal) b = Cert.Egnn.vecAsRow b := by
  funext j
  unfold biasRow Cert.Egnn.vecAsRow
  exact shapeCast_apply b _ j _
    (by rewrite [Shape.rowMajor_val_one, Shape.rowMajor_val_two]; have h0 : (j 0).val < 1 := (j 0).isLt
        show (j 1).val = (j 0).val * 128 + (j 1).val; omega)

open Cert.KernelIdeal in
theorem gateRow_view (x7 : FVec Ideal S128x1 .f32) : gateRow (F := Ideal) x7 = Cert.Egnn.colAsRow x7 := by
  funext j
  unfold gateRow Cert.Egnn.colAsRow
  exact transpose_apply [1, 0] x7 _ j _ (fun b => match b with
    | ⟨0, _⟩ => by have h0 : (j 0).val < 1 := (j 0).isLt; show 0 = (j 0).val; omega
    | ⟨1, _⟩ => rfl)

open Cert.KernelIdeal in
theorem gateCell_view (x8 : FVec Ideal S1 .f32) : gateCell (F := Ideal) x8 = Cert.Egnn.cellOf x8 := by
  funext j
  unfold gateCell Cert.Egnn.cellOf
  exact shapeCast_apply x8 _ j _
    (by rewrite [Shape.rowMajor_val_one, Shape.rowMajor_val_two]; have h0 : (j 0).val < 1 := (j 0).isLt
        have h1 : (j 1).val < 1 := (j 1).isLt
        show 0 = (j 0).val * 1 + (j 1).val; omega)

end Cert.Bridge

end
-- ==== Proof.RefValue.lean ====
/-
  The reference program's edge stages, read stage by stage at the ideal instance: the array it scatters is the
  edge network's function, row by row, of its own fetched feature rows and squared distances. Where the reference
  multiplies the concatenation of two 128-wide rows and one scalar by the uncut 257×128 matrix, the sum over 257
  terms splits at 128 and at 256 into the three parts the specification adds. These are sums in a commutative
  monoid: no finiteness is needed.
-/
import proofs.«428158_j1829656068677_1_alg».proof.Proof.RefRead
import proofs.«428158_j1829656068677_1_alg».proof.Proof.Params
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.ReadP Idealize.ShloMosaic Idealize.ShloMosaic.TcCoe Idealize.SL.Sem
open Idealize.ShloMosaic.ValueIdx Cert.Egnn
open scoped BigOperators

/-! ## A sum over 257 = 128 + 128 + 1 terms -/

/-- A sum over 257 terms is the sum of its first 128, its next 128 and its last term. -/
theorem sum_split257 (f : Fin 257 → EReal) :
    ∑ k : Fin 257, f k
      = (∑ k : Fin 128, f ⟨k.val, by omega⟩) + (∑ k : Fin 128, f ⟨128 + k.val, by omega⟩) + f ⟨256, by omega⟩ := by
  have h1 := Fin.sum_univ_castSucc (n := 256) f
  have h2 := Fin.sum_univ_add (a := 128) (b := 128) (fun i : Fin (128 + 128) => f (Fin.castSucc i))
  rw [h1, h2]
  rfl

/-! ## The parameter views, read at an entry -/

/-- Row `k` of the 128 rows that start at row `o` is row `o + k` of the taller matrix. -/
theorem rowsFrom_apply {N : Nat} (o : Nat) (h : o + 128 ≤ N) (x : (⟨2, ![N, 128]⟩ : Shape).Idx → EReal)
    (k j : Fin 128) (r : Fin N) (hr : r.val = o + k.val) :
    rowsFrom o h x (ix2 k j) = x (ix2 r j) := by
  obtain ⟨rv, hlt⟩ := r
  simp only at hr
  subst hr
  rfl

section Edge

variable (x0 : FVec Ideal S40000x128 .f32) (x1 : FVec Ideal S40000x3 .f32) (x2 : IVec S2x640000 32)
  (x3 : FVec Ideal S257x128 .f32) (x4 : FVec Ideal S128 .f32) (x5 : FVec Ideal S128x128 .f32)
  (x6 : FVec Ideal S128 .f32) (x7 : FVec Ideal S128x1 .f32) (x8 : FVec Ideal S1 .f32)

/-- The fetched feature row at the first end point of edge `e`. -/
abbrev srcRow (e : Fin 640000) : Fin 128 → EReal := fun k => val_main_v28 (F := Ideal) x0 x2 (ix2 e k)

/-- The fetched feature row at the second end point of edge `e`. -/
abbrev dstRow (e : Fin 640000) : Fin 128 → EReal := fun k => val_main_v35 (F := Ideal) x0 x2 (ix2 e k)

/-- The squared distance of edge `e`. -/
abbrev sqDist (e : Fin 640000) : EReal := val_main_v21 (F := Ideal) x1 x2 (ix2 e (0 : Fin 1))

/-- The first-layer weights that meet the first row, the second row and the scalar; the biases; the gate. -/
abbrev w1a : Fin 128 → Fin 128 → EReal := fun k j => rowsFrom 0 (by decide) x3 (ix2 k j)
abbrev w1b : Fin 128 → Fin 128 → EReal := fun k j => rowsFrom 128 (by decide) x3 (ix2 k j)
abbrev w1r : Fin 128 → EReal := fun j => rowAt 256 (by decide) x3 (ix2 (0 : Fin 1) j)
abbrev b1v : Fin 128 → EReal := fun j => vecAsRow x4 (ix2 (0 : Fin 1) j)
abbrev w2m : Fin 128 → Fin 128 → EReal := fun k j => x5 (ix2 k j)
abbrev b2v : Fin 128 → EReal := fun j => vecAsRow x6 (ix2 (0 : Fin 1) j)
abbrev wav : Fin 128 → EReal := fun j => colAsRow x7 (ix2 (0 : Fin 1) j)
abbrev bav : EReal := cellOf x8 (ix2 (0 : Fin 1) (0 : Fin 1))

/-! ## The joined row of an edge, column by column -/

theorem v36_fst (e : Fin 640000) (k : Fin 128) :
    val_main_v36 (F := Ideal) x0 x1 x2 (ix2 e (⟨k.val, by omega⟩ : Fin 257)) = srcRow x0 x2 e k := by
  unfold val_main_v36
  refine concatenate_apply_piece _ _ _ _ 0 ?_ S640000x128 _ ?_ ?_ 0 ?_ (ix2 e k) ?_ ?_
  · simp
  · rfl
  · rfl
  · rfl
  · intro b hb
    match b with
    | ⟨0, _⟩ => rfl
    | ⟨1, _⟩ => exact absurd rfl hb
  · exact Nat.zero_add _

theorem v36_snd (e : Fin 640000) (k : Fin 128) :
    val_main_v36 (F := Ideal) x0 x1 x2 (ix2 e (⟨128 + k.val, by omega⟩ : Fin 257)) = dstRow x0 x2 e k := by
  unfold val_main_v36
  refine concatenate_apply_piece _ _ _ _ 1 ?_ S640000x128 _ ?_ ?_ 128 ?_ (ix2 e k) ?_ ?_
  · simp
  · rfl
  · rfl
  · rfl
  · intro b hb
    match b with
    | ⟨0, _⟩ => rfl
    | ⟨1, _⟩ => exact absurd rfl hb
  · rfl

theorem v36_lst (e : Fin 640000) :
    val_main_v36 (F := Ideal) x0 x1 x2 (ix2 e (⟨256, by omega⟩ : Fin 257)) = sqDist x1 x2 e := by
  unfold val_main_v36
  refine concatenate_apply_piece _ _ _ _ 2 ?_ S640000x1 _ ?_ ?_ 256 ?_ (ix2 e (0 : Fin 1)) ?_ ?_
  · simp
  · rfl
  · rfl
  · rfl
  · intro b hb
    match b with
    | ⟨0, _⟩ => rfl
    | ⟨1, _⟩ => exact absurd rfl hb
  · rfl

/-! ## The first layer -/

theorem lidx37 (e : Fin 640000) (j : Fin 128) (k : Fin 257) : lidx_main_v37 (ix2 e j) k = ix2 e k := by
  funext a
  match a with
  | ⟨0, _⟩ => rfl
  | ⟨1, _⟩ => rfl

theorem ridx37 (e : Fin 640000) (j : Fin 128) (k : Fin 257) : ridx_main_v37 (ix2 e j) k = ix2 k j := by
  funext a
  match a with
  | ⟨0, _⟩ => rfl
  | ⟨1, _⟩ => rfl

/-- The product with the uncut 257×128 matrix, split at 128 and at 256. -/
theorem v37_eq (e : Fin 640000) (j : Fin 128) :
    val_main_v37 (F := Ideal) x0 x1 x2 x3 (ix2 e j)
      = (∑ k : Fin 128, srcRow x0 x2 e k * w1a x3 k j) + (∑ k : Fin 128, dstRow x0 x2 e k * w1b x3 k j)
          + sqDist x1 x2 e * w1r x3 j := by
  rw [val_main_v37_apply, sum_split257]
  refine congrArg₂ (· + ·) (congrArg₂ (· + ·) (Finset.sum_congr rfl fun k _ => ?_) (Finset.sum_congr rfl fun k _ => ?_)) ?_
  · rw [lidx37, ridx37, v36_fst]
    exact congrArg (srcRow x0 x2 e k * ·)
      (rowsFrom_apply 0 (by decide) x3 k j ⟨k.val, by omega⟩ (Nat.zero_add _).symm).symm
  · rw [lidx37, ridx37, v36_snd]
    exact congrArg (dstRow x0 x2 e k * ·)
      (rowsFrom_apply 128 (by decide) x3 k j ⟨128 + k.val, by omega⟩ rfl).symm
  · rw [lidx37, ridx37, v36_lst]
    rfl

theorem v39_eq (e : Fin 640000) (j : Fin 128) : val_main_v39 (F := Ideal) x4 (ix2 e j) = b1v x4 j := by
  rw [val_main_v39_apply, val_main_v38_apply]
  show x4 _ = x4 _
  congr 1
  funext a
  match a with
  | ⟨0, _⟩ => rfl

/-- The first affine layer of the edge network, as the reference computes it. -/
theorem v40_eq (e : Fin 640000) (j : Fin 128) :
    val_main_v40 (F := Ideal) x0 x1 x2 x3 x4 (ix2 e j)
      = edgeX1 (srcRow x0 x2 e) (dstRow x0 x2 e) (sqDist x1 x2 e) (w1a x3) (w1b x3) (w1r x3) (b1v x4) j := by
  rw [val_main_v40_apply, v37_eq, v39_eq]
  rfl

/-! ## x ↦ x·σ(x) and σ, as the reference spells them -/

/-- One over one plus e⁻ˣ, in the host's operations and with the constant one given by its bit pattern, is σ. -/
theorem logistic_read (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  simp only [Ideal.hostDivf_def, Ideal.addf_def, Ideal.hostUnary_exp_def, Ideal.hostNegf_def, Ideal.negf_def,
    Ideal.ofBits_def, Ideal.ofBits_one_f32]
  rfl

/-- The first activation, entry by entry. -/
theorem v41_eq (i : S640000x128.Idx) :
    val_main_v41 (F := Ideal) x0 x1 x2 x3 x4 i = silu (val_main_v40 (F := Ideal) x0 x1 x2 x3 x4 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, logistic_read]
  rfl

/-- The activated first layer of edge `e`, as a row. -/
abbrev act1 (e : Fin 640000) : Fin 128 → EReal := fun k =>
  silu (edgeX1 (srcRow x0 x2 e) (dstRow x0 x2 e) (sqDist x1 x2 e) (w1a x3) (w1b x3) (w1r x3) (b1v x4) k)

theorem v41_row (e : Fin 640000) (k : Fin 128) :
    val_main_v41 (F := Ideal) x0 x1 x2 x3 x4 (ix2 e k) = act1 x0 x1 x2 x3 x4 e k := by
  rw [v41_eq, v40_eq]

/-! ## The second layer -/

theorem lidx42 (e : Fin 640000) (j k : Fin 128) : lidx_main_v42 (ix2 e j) k = ix2 e k := by
  funext a
  match a with
  | ⟨0, _⟩ => rfl
  | ⟨1, _⟩ => rfl

theorem ridx42 (e : Fin 640000) (j k : Fin 128) : ridx_main_v42 (ix2 e j) k = ix2 k j := by
  funext a
  match a with
  | ⟨0, _⟩ => rfl
  | ⟨1, _⟩ => rfl

theorem v42_eq (e : Fin 640000) (j : Fin 128) :
    val_main_v42 (F := Ideal) x0 x1 x2 x3 x4 x5 (ix2 e j) = ∑ k : Fin 128, act1 x0 x1 x2 x3 x4 e k * w2m x5 k j := by
  rw [val_main_v42_apply]
  refine Finset.sum_congr rfl fun k _ => ?_
  rw [lidx42, ridx42, v41_row]

theorem v44_eq (e : Fin 640000) (j : Fin 128) : val_main_v44 (F := Ideal) x6 (ix2 e j) = b2v x6 j := by
  rw [val_main_v44_apply, val_main_v43_apply]
  show x6 _ = x6 _
  congr 1
  funext a
  match a with
  | ⟨0, _⟩ => rfl

/-- The second affine layer of the edge network, as the reference computes it. -/
theorem v45_eq (e : Fin 640000) (j : Fin 128) :
    val_main_v45 (F := Ideal) x0 x1 x2 x3 x4 x5 x6 (ix2 e j) = edgeX2 (act1 x0 x1 x2 x3 x4 e) (w2m x5) (b2v x6) j := by
  rw [val_main_v45_apply, v42_eq, v44_eq]
  rfl

/-- The second activation, entry by entry. -/
theorem v46_eq (i : S640000x128.Idx) :
    val_main_v46 (F := Ideal) x0 x1 x2 x3 x4 x5 x6 i = silu (val_main_v45 (F := Ideal) x0 x1 x2 x3 x4 x5 x6 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, logistic_read]
  rfl

/-- The activated second layer of edge `e`, as a row: the message before its gate. -/
abbrev act2 (e : Fin 640000) : Fin 128 → EReal := fun k =>
  silu (edgeX2 (act1 x0 x1 x2 x3 x4 e) (w2m x5) (b2v x6) k)

theorem v46_row (e : Fin 640000) (k : Fin 128) :
    val_main_v46 (F := Ideal) x0 x1 x2 x3 x4 x5 x6 (ix2 e k) = act2 x0 x1 x2 x3 x4 x5 x6 e k := by
  rw [v46_eq, v45_eq]

/-! ## The gate -/

theorem lidx47 (e : Fin 640000) (k : Fin 128) : lidx_main_v47 (ix2 e (0 : Fin 1)) k = ix2 e k := by
  funext a
  match a with
  | ⟨0, _⟩ => rfl
  | ⟨1, _⟩ => rfl

theorem ridx47 (e : Fin 640000) (k : Fin 128) : ridx_main_v47 (ix2 e (0 : Fin 1)) k = ix2 k (0 : Fin 1) := by
  funext a
  match a with
  | ⟨0, _⟩ => rfl
  | ⟨1, _⟩ => rfl

theorem v47_eq (e : Fin 640000) :
    val_main_v47 (F := Ideal) x0 x1 x2 x3 x4 x5 x6 x7 (ix2 e (0 : Fin 1))
      = ∑ k : Fin 128, act2 x0 x1 x2 x3 x4 x5 x6 e k * wav x7 k := by
  rw [val_main_v47_apply]
  refine Finset.sum_congr rfl fun k _ => ?_
  rw [lidx47, ridx47, v46_row]
  rfl

theorem v49_eq (e : Fin 640000) : val_main_v49 (F := Ideal) x8 (ix2 e (0 : Fin 1)) = bav x8 := by
  rw [val_main_v49_apply, val_main_v48_apply]
  show x8 _ = x8 _
  congr 1
  funext a
  match a with
  | ⟨0, _⟩ => rfl

theorem v50_eq (e : Fin 640000) :
    val_main_v50 (F := Ideal) x0 x1 x2 x3 x4 x5 x6 x7 x8 (ix2 e (0 : Fin 1))
      = (∑ k : Fin 128, act2 x0 x1 x2 x3 x4 x5 x6 e k * wav x7 k) + bav x8 := by
  rw [val_main_v50_apply, v47_eq, v49_eq]
  rfl

theorem v56_eq (i : S640000x1.Idx) :
    val_main_v56 (F := Ideal) x0 x1 x2 x3 x4 x5 x6 x7 x8 i
      = Ideal.logistic (val_main_v50 (F := Ideal) x0 x1 x2 x3 x4 x5 x6 x7 x8 i) := by
  rw [val_main_v56_apply, val_main_v55_apply, val_main_cst_8_apply, val_main_v54_apply, val_main_v53_apply,
    val_main_cst_7_apply, val_main_v52_apply, val_main_v51_apply, logistic_read]

theorem idx57 (e : Fin 640000) (j : Fin 128) : idx_main_v57 (ix2 e j) = ix2 e (0 : Fin 1) := by
  funext a
  match a with
  | ⟨0, _⟩ => rfl
  | ⟨1, _⟩ => rfl

/-- The gated message of edge `e`, entry by entry. -/
theorem v58_eq (e : Fin 640000) (j : Fin 128) :
    val_main_v58 (F := Ideal) x0 x1 x2 x3 x4 x5 x6 x7 x8 (ix2 e j)
      = edgeRow (srcRow x0 x2 e) (dstRow x0 x2 e) (sqDist x1 x2 e) (w1a x3) (w1b x3) (w1r x3) (b1v x4) (w2m x5)
          (b2v x6) (wav x7) (bav x8) j := by
  rw [val_main_v58_apply, v46_row, val_main_v57_apply, idx57, v56_eq, v50_eq]
  rfl

end Edge

/-- The array the reference scatters (its gated messages) is the edge network of its own fetched rows, its own
    squared distances and the edge network's parameters as the program receives them. -/
theorem ref_messages (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) :
    val_main_v58 (F := Ideal) x0 x1 x2 x3 x4 x5 x6 x7 x8
      = Cert.Egnn.messages (val_main_v28 (F := Ideal) x0 x2) (val_main_v35 (F := Ideal) x0 x2) (val_main_v21 (F := Ideal) x1 x2)
          x3 x4 x5 x6 x7 x8 := by
  funext i
  obtain ⟨e, j, rfl⟩ : ∃ (e : Fin 640000) (j : Fin 128), i = ix2 e j := ⟨i 0, i 1, eq_ix2 i⟩
  exact v58_eq x0 x1 x2 x3 x4 x5 x6 x7 x8 e j

end Cert.ReferenceIdeal.RefValue

end
-- ==== Proof.RefUpdate.lean ====
/-
  The reference program's last stages, read at the ideal instance: its result is the node network's function, row
  by row, of the features and the scattered sums. The reference multiplies the concatenation of the node's row
  and its summed-message row by the uncut 256×128 matrix; the sum over 256 terms splits at 128 into the two parts
  the specification adds. A sum in a commutative monoid: no finiteness is needed.
-/
import proofs.«428158_j1829656068677_1_alg».proof.Proof.RefRead
import proofs.«428158_j1829656068677_1_alg».proof.Proof.Params
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefUpdate

open Cert.ReferenceIdeal Cert.ReferenceIdeal.ReadP Idealize.ShloMosaic Idealize.ShloMosaic.TcCoe Idealize.SL.Sem

open Idealize.ShloMosaic.ValueIdx

/-! ## A sum over 256 terms, cut at 128 -/

/-- In a commutative monoid the sum over 256 indices is the sum over the first 128 plus the sum over the last 128. -/
theorem sum_cut (f : Fin 256 → EReal) :
    ∑ k : Fin 256, f k
      = (∑ k : Fin 128, f ⟨k.val, by have := k.isLt; omega⟩) + (∑ k : Fin 128, f ⟨128 + k.val, by have := k.isLt; omega⟩) :=
  Fin.sum_univ_add (M := EReal) (a := 128) (b := 128) f

/-! ## The joined array: the node's row, then its summed-message row -/

/-- Column k < 128 of row n of the joined array is the feature array's. -/
theorem joined_left (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) (n : Fin 40000) (k : Fin 128) :
    val_main_v62 (F := Ideal) x0 x1 x2 x3 x4 x5 x6 x7 x8 (ix2 n (⟨k.val, by have := k.isLt; omega⟩ : Fin 256)) = x0 (ix2 n k) := by
  unfold val_main_v62
  refine concatenate_pair_apply_left (t := S40000x256) (s₁ := S40000x128) (s₂ := S40000x128) 1 _ _ _ _ rfl (ix2 n k) (fun b => ?_)
  match b with
  | ⟨0, _⟩ => rfl
  | ⟨1, _⟩ => rfl

/-- Column 128 + k of row n of the joined array is the summed-message array's column k. -/
theorem joined_right (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) (n : Fin 40000) (k : Fin 128) :
    val_main_v62 (F := Ideal) x0 x1 x2 x3 x4 x5 x6 x7 x8 (ix2 n (⟨128 + k.val, by have := k.isLt; omega⟩ : Fin 256))
      = val_main_v61 (F := Ideal) x0 x1 x2 x3 x4 x5 x6 x7 x8 (ix2 n k) := by
  unfold val_main_v62
  refine concatenate_pair_apply_right (t := S40000x256) (s₁ := S40000x128) (s₂ := S40000x128) 1 _ _ _ _ rfl rfl (ix2 n k) (fun b hb => ?_) ?_
  · match b, hb with
    | ⟨0, _⟩, _ => rfl
    | ⟨1, _⟩, hb => exact absurd rfl hb
  · show k.val + 128 = 128 + k.val
    omega

/-! ## The first layer at an index -/

/-- The first affine layer of the reference at (n, k) is the specification's, on row n of the features and of the
    summed messages, with the 256-row matrix cut at row 128 and the offset vector as a row. -/
theorem first_layer_at (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) (x9 : FVec Ideal S256x128 .f32) (x10 : FVec Ideal S128 .f32) (n : Fin 40000) (k : Fin 128) :
    val_main_v66 (F := Ideal) x0 x1 x2 x3 x4 x5 x6 x7 x8 x9 x10 (ix2 n k)
      = Cert.Egnn.nodeX (fun k' => x0 (ix2 n k')) (fun k' => val_main_v61 (F := Ideal) x0 x1 x2 x3 x4 x5 x6 x7 x8 (ix2 n k'))
          (fun k' j => Cert.Egnn.rowsFrom 0 (by decide) x9 (ix2 k' j)) (fun k' j => Cert.Egnn.rowsFrom 128 (by decide) x9 (ix2 k' j))
          (fun j => Cert.Egnn.vecAsRow x10 (ix2 (0 : Fin 1) j)) k := by
  have el : ∀ q : Fin 256, lidx_main_v63 (ix2 n k) q = (ix2 n q : S40000x256.Idx) := fun q =>
    funext fun a => Fin.ext (by match a with | ⟨0, _⟩ => rfl | ⟨1, _⟩ => rfl)
  have er : ∀ q : Fin 256, ridx_main_v63 (ix2 n k) q = (ix2 q k : S256x128.Idx) := fun q =>
    funext fun a => Fin.ext (by match a with | ⟨0, _⟩ => rfl | ⟨1, _⟩ => rfl)
  have eb : idx_main_v64 (idx_main_v65 (ix2 n k)) = (ix1 k : S128.Idx) :=
    funext fun a => Fin.ext (by match a with | ⟨0, _⟩ => rfl)
  rw [val_main_v66_apply, val_main_v63_apply, val_main_v65_apply, val_main_v64_apply, eb]
  simp only [el, er]
  rw [sum_cut]
  simp only [joined_left, joined_right, Ideal.addf_def]
  unfold Cert.Egnn.nodeX Cert.Egnn.rowsFrom Cert.Egnn.vecAsRow
  simp only [Nat.zero_add]

/-! ## The activation at an index -/

/-- The reference spells x · σ(x) as x · (1 / (1 + e⁻ˣ)) with the constant 1 as a 32-bit pattern: at every index it
    is the specification's activation of the first layer there. -/
theorem activated_at (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) (x9 : FVec Ideal S256x128 .f32) (x10 : FVec Ideal S128 .f32) (i : S40000x128.Idx) :
    val_main_v67 (F := Ideal) x0 x1 x2 x3 x4 x5 x6 x7 x8 x9 x10 i = Cert.Egnn.silu (val_main_v66 (F := Ideal) x0 x1 x2 x3 x4 x5 x6 x7 x8 x9 x10 i) := by
  rw [val_main_v67_apply, val_main_call2_v5_apply, val_main_call2_v4_apply, val_main_call2_cst_0_apply, val_main_call2_v3_apply,
    val_main_call2_v2_apply, val_main_call2_cst_apply, val_main_call2_v1_apply, val_main_call2_v0_apply]
  generalize val_main_v66 (F := Ideal) x0 x1 x2 x3 x4 x5 x6 x7 x8 x9 x10 i = y
  simp only [Ideal.mulf_def, Ideal.hostDivf_def, Ideal.addf_def, Ideal.hostUnary_exp_def, Ideal.hostNegf_def, Ideal.negf_def,
    Ideal.ofBits_def, Ideal.ofBits_one_f32]
  rfl

/-- The reference's result is the node network of the features, its scattered sums and the node network's
    parameters as the program receives them. -/
theorem ref_update (x0 : FVec Ideal S40000x128 .f32) (x1 : FVec Ideal S40000x3 .f32) (x2 : IVec S2x640000 32) (x3 : FVec Ideal S257x128 .f32) (x4 : FVec Ideal S128 .f32) (x5 : FVec Ideal S128x128 .f32) (x6 : FVec Ideal S128 .f32) (x7 : FVec Ideal S128x1 .f32) (x8 : FVec Ideal S1 .f32) (x9 : FVec Ideal S256x128 .f32) (x10 : FVec Ideal S128 .f32) (x11 : FVec Ideal S128x128 .f32) (x12 : FVec Ideal S128 .f32) :
    val_main_v72 (F := Ideal) x0 x1 x2 x3 x4 x5 x6 x7 x8 x9 x10 x11 x12
      = Cert.Egnn.update x0 (val_main_v61 (F := Ideal) x0 x1 x2 x3 x4 x5 x6 x7 x8) x9 x10 x11 x12 := by
  funext i
  obtain ⟨n, j, rfl⟩ : ∃ (n : Fin 40000) (j : Fin 128), i = ix2 n j := ⟨i 0, i 1, eq_ix2 i⟩
  have el : ∀ q : Fin 128, lidx_main_v68 (ix2 n j) q = (ix2 n q : S40000x128.Idx) := fun q =>
    funext fun a => Fin.ext (by match a with | ⟨0, _⟩ => rfl | ⟨1, _⟩ => rfl)
  have er : ∀ q : Fin 128, ridx_main_v68 (ix2 n j) q = (ix2 q j : S128x128.Idx) := fun q =>
    funext fun a => Fin.ext (by match a with | ⟨0, _⟩ => rfl | ⟨1, _⟩ => rfl)
  have eb : idx_main_v69 (idx_main_v70 (ix2 n j)) = (ix1 j : S128.Idx) :=
    funext fun a => Fin.ext (by match a with | ⟨0, _⟩ => rfl)
  rw [val_main_v72_apply, val_main_v71_apply, val_main_v68_apply, val_main_v70_apply, val_main_v69_apply, eb]
  simp only [el, er, activated_at, first_layer_at, Ideal.addf_def]
  rfl

end Cert.ReferenceIdeal.RefUpdate

end
-- ==== Proof.Assemble.lean ====
/-
  The two programs compute one function of their arguments.
  The kernel program's result array is what its second region leaves: the node network, row by row, of the arrays
  that region is entered with, which are the features, the per-node sums of what the first region left, and the
  node network's parameters; the first region left the edge network, row by row, of the fetched rows, the squared
  distances and the edge network's parameters. Under the precondition every index lies inside the node arrays, so
  the fetches never take their fill and are the plain fetches the reference makes. The reference's stages compute
  the edge network of those same fetched rows with the uncut parameter arrays, scatter it by source node with the
  same scatter, and apply the node network with the uncut parameters: the same function.
-/
import proofs.«428158_j1829656068677_1_alg».proof.Proof.HostK
import proofs.«428158_j1829656068677_1_alg».proof.Proof.Edge
import proofs.«428158_j1829656068677_1_alg».proof.Proof.Node
import proofs.«428158_j1829656068677_1_alg».proof.Proof.IdxPre
import proofs.«428158_j1829656068677_1_alg».proof.Proof.Bridge
import proofs.«428158_j1829656068677_1_alg».proof.Proof.RefValue
import proofs.«428158_j1829656068677_1_alg».proof.Proof.RefUpdate

noncomputable section

namespace Cert.Assemble

open Idealize.ShloMosaic Idealize.ShloMosaic.TcCoe Idealize.SL.Sem
open Cert.KernelIdeal.HostValue

/-! ## The kernel program's result array, as a function of the launch arrays -/

section Kernel
open Cert.KernelIdeal Cert.KernelIdeal.Gen

variable (m : (ℓ : Loc nD τ sig) → Buf (Elt Ideal) ℓ) (ρ : Dev nD → PrngReg)

/-- What the second region's write-backs leave in the result array. -/
theorem kernel_result (c : Dev nD) :
    (dat1 (F := Ideal) (V8 m ρ) c).arrAt 7 cfg1.N = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [Cert.KernelIdeal.NodeValue.node_array (V8 m ρ) c]
  rw [entry1_h m ρ c, entry1_agg m ρ c, entry1_w3a m ρ c, entry1_w3b m ρ c, entry1_b3 m ρ c, entry1_w4 m ρ c, entry1_b4 m ρ c]
  rw [Cert.KernelIdeal.EdgeValue.edge_array (V6 m ρ) c]
  rw [entry0_hrow m ρ c, entry0_hcol m ρ c, entry0_radial m ρ c, entry0_w1a m ρ c, entry0_w1b m ρ c, entry0_w1r m ρ c,
    entry0_b1 m ρ c, entry0_w2 m ρ c, entry0_b2 m ρ c, entry0_war m ρ c, entry0_ba m ρ c]
  rfl

end Kernel

/-! ## The kernel program's function is the reference's last stage -/

section Same
open Cert.KernelIdeal Cert.Bridge

variable (x0 : FVec Ideal S40000x128 .f32) (x1 : FVec Ideal S40000x3 .f32) (x2 : IVec S2x640000 32)
  (x3 : FVec Ideal S257x128 .f32) (x4 : FVec Ideal S128 .f32) (x5 : FVec Ideal S128x128 .f32) (x6 : FVec Ideal S128 .f32)
  (x7 : FVec Ideal S128x1 .f32) (x8 : FVec Ideal S1 .f32) (x9 : FVec Ideal S256x128 .f32) (x10 : FVec Ideal S128 .f32)
  (x11 : FVec Ideal S128x128 .f32) (x12 : FVec Ideal S128 .f32)

/-- Where the four row fetches are the plain fetches, the kernel program's function of the thirteen arrays is the
    reference's last stage of them. -/
theorem kernel_eq_ref
    (h1 : takeRows (F := Ideal) x0 (srcIdx x2) = Host.gather gather_S40000x128_S640000x1_S640000x128_1_0_n_n_0_1_1128 x0 (wrapIdx (srcIdx x2)))
    (h2 : takeRows (F := Ideal) x0 (dstIdx x2) = Host.gather gather_S40000x128_S640000x1_S640000x128_1_0_n_n_0_1_1128 x0 (wrapIdx (dstIdx x2)))
    (h3 : takeCoords (F := Ideal) x1 (srcIdx x2) = Host.gather gather_S40000x3_S640000x1_S640000x3_1_0_n_n_0_1_13 x1 (wrapIdx (srcIdx x2)))
    (h4 : takeCoords (F := Ideal) x1 (dstIdx x2) = Host.gather gather_S40000x3_S640000x1_S640000x3_1_0_n_n_0_1_13 x1 (wrapIdx (dstIdx x2))) :
    kernelValue x0 x1 x2 x3 x4 x5 x6 x7 x8 x9 x10 x11 x12
      = Cert.ReferenceIdeal.ReadP.val_main_v72 (F := Ideal) x0 x1 x2 x3 x4 x5 x6 x7 x8 x9 x10 x11 x12 := by
  unfold kernelValue
  rw [h1, h2, h3, h4, fetch_src_eq, fetch_dst_eq, sqDist_eq, summed_eq]
  rw [w1a_view, w1b_view, w1r_view, bias_view x4, bias_view x6, gateRow_view, gateCell_view, w3a_view, w3b_view, bias_view x10,
    bias_view x12]
  rw [Cert.ReferenceIdeal.RefUpdate.ref_update]
  unfold Cert.ReferenceIdeal.ReadP.val_main_v61
  rw [Cert.ReferenceIdeal.RefValue.ref_messages]
  rfl

end Same

end Cert.Assemble

end
-- ==== Proof.lean ====
/-
  A graph-network layer with coordinates, as a Pallas kernel program and as its jnp reference, computes one function
  of its thirteen argument arrays over the extended reals, wherever every entry of the edge-index array is a node
  index in [0, 40000) (the precondition, beside the finiteness of the float inputs, which the proof never opens).

  For every edge the two programs fetch the feature rows and the coordinates of its two end points, form the squared
  distance, apply an edge network (two affine layers with x·σ(x), a scalar σ-gate) to get a message, sum the messages
  per source node, and apply a node network with a residual. The kernel program runs the two networks in two grid
  regions over row blocks, with the first-layer matrices cut where the reference multiplies a concatenation by the
  uncut matrix: the same finite sums in a commutative monoid, regrouped. Its row fetch fills with a not-a-number
  pattern outside the array where the reference's fetch clamps: under the precondition no index is outside.

  The frames of the two kernel programs are the generated ones; the reference's run is read window by window
  (Proof/RefRunH.lean); the kernel program's run is the launch with its result buffer read (Proof/RunK.lean), its
  value the two regions' row-by-row values (Proof/Edge.lean, Proof/Node.lean) over the host read-back
  (Proof/HostK.lean); the two values meet in Proof/Assemble.lean.
-/
import proofs.«428158_j1829656068677_1_alg».proof.Defs
import proofs.«428158_j1829656068677_1_alg».proof.Proof.Gen.Kernel
import proofs.«428158_j1829656068677_1_alg».proof.Proof.Gen.Kernel.Frame
import proofs.«428158_j1829656068677_1_alg».proof.Proof.Gen.KernelIdeal
import proofs.«428158_j1829656068677_1_alg».proof.Proof.Gen.KernelIdeal.Frame
import proofs.«428158_j1829656068677_1_alg».proof.Proof.Gen.ReferenceIdeal
import proofs.«428158_j1829656068677_1_alg».proof.Proof.Gen.Pre_finite_inputs
import proofs.«428158_j1829656068677_1_alg».proof.Proof.RunK
import proofs.«428158_j1829656068677_1_alg».proof.Proof.RefRunH
import proofs.«428158_j1829656068677_1_alg».proof.Proof.Assemble
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, both programs end with the node network's array of the launch
    arrays as the first result and the coordinate array as the second. -/
theorem algebraic : Cert.algebraic_KernelIdeal_ReferenceIdeal := by
  intro m ρ m' ρ' hpre hagree
  refine ⟨fun c => Cert.KernelIdeal.HostValue.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Assemble.kernel_result m ρ c), (h c).2.2.1, (h c).2⟩)
      (Cert.KernelIdeal.GenRun.run_value (F := Ideal) m ρ)
  · refine (θ_run Cert.ReferenceIdeal.defs _ _).mono (fun r h c => ⟨(h c).1.trans ?_, (h c).2.2.1.trans (hagree c).2.1, (h c).2⟩)
      (Cert.ReferenceIdeal.RefRun.run (F := Ideal) m' ρ')
    obtain ⟨t1, t2, t3, t4⟩ := Cert.KernelIdeal.HostValue.take_eq_gather m hpre c
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Assemble.kernel_eq_ref _ _ _ _ _ _ _ _ _ _ _ _ _ t1 t2 t3 t4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
